-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x8x64x64x64 : Shape := ⟨5, ![1, 8, 64, 64, 64]⟩
abbrev S1x100000x32 : Shape := ⟨3, ![1, 100000, 32]⟩
abbrev S256x512 : Shape := ⟨2, ![256, 512]⟩
abbrev S512 : Shape := ⟨1, ![512]⟩
abbrev S512x32 : Shape := ⟨2, ![512, 32]⟩
abbrev S32 : Shape := ⟨1, ![32]⟩
abbrev S_ : Shape := ⟨0, ![]⟩

class Facts : Prop where
  bcast_S_S1x8x64x64x64 : S_.BroadcastsInDim S1x8x64x64x64 (![] : Fin 0 → Fin S1x8x64x64x64.rank)
  reducesTo_S1x8x64x64x64_S_d0_1_2_3_4 : S1x8x64x64x64.ReducesTo [0, 1, 2, 3, 4] S_
  h_S_ : 0 < S_.numel
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S512x32 : S_.BroadcastsInDim S512x32 (![] : Fin 0 → Fin S512x32.rank)
  reducesTo_S512x32_S_d0_1 : S512x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S512x32 1) : IVec S_ 1 :=
  let main_c_5 : IVec S_ 1 := constantI S_ 1 1#1
  let main_v17 : IVec S_ 1 := (fun x v => Host.reduce IntOp.andi x v reducesTo_S512x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S1x8x64x64x64 .f32) (main_arg1 : IVec S1x100000x32 32) (main_arg2 : FVec F S256x512 .f32) (main_arg3 : FVec F S512 .f32) (main_arg4 : FVec F S512x32 .f32) (main_arg5 : FVec F S32 .f32) : IVec S_ 1 :=
  let main_v0 : FVec F S1x8x64x64x64 .f32 := Host.absf main_arg0
  let main_cst : FVec F S_ .f32 := constant S_ .f32 0x7F800000#32
  let main_v1 : FVec F S1x8x64x64x64 .f32 := broadcastInDim S1x8x64x64x64 ![] bcast_S_S1x8x64x64x64 main_cst
  let main_v2 : IVec S1x8x64x64x64 1 := cmpf .olt main_v0 main_v1
  let main_c : IVec S_ 1 := constantI S_ 1 1#1
  let main_v3 : IVec S_ 1 := (fun x v => Host.reduce IntOp.andi x v reducesTo_S1x8x64x64x64_S_d0_1_2_3_4 h_S_) main_v2 main_c
  let main_v4 : FVec F S256x512 .f32 := Host.absf main_arg2
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x32 .f32 := Host.absf main_arg4
  let main_cst_4 : FVec F S_ .f32 := constant S_ .f32 0x7F800000#32
  let main_v15 : FVec F S512x32 .f32 := broadcastInDim S512x32 ![] bcast_S_S512x32 main_cst_4
  let main_v16 : IVec S512x32 1 := cmpf .olt main_v14 main_v15
  fn_part1 (F := F) main_arg5 main_v13 main_v16
-- ==== Kernel.lean ====
abbrev S1x8x64x64x64 : Shape := ⟨5, ![1, 8, 64, 64, 64]⟩
abbrev S1x100000x32 : Shape := ⟨3, ![1, 100000, 32]⟩
abbrev S256x512 : Shape := ⟨2, ![256, 512]⟩
abbrev S512 : Shape := ⟨1, ![512]⟩
abbrev S512x32 : Shape := ⟨2, ![512, 32]⟩
abbrev S32 : Shape := ⟨1, ![32]⟩
abbrev S1x8x262144 : Shape := ⟨3, ![1, 8, 262144]⟩
abbrev S_ : Shape := ⟨0, ![]⟩
abbrev S1x1x3200000 : Shape := ⟨3, ![1, 1, 3200000]⟩
abbrev S1x8x3200000 : Shape := ⟨3, ![1, 8, 3200000]⟩
abbrev S8x3200000x1 : Shape := ⟨3, ![8, 3200000, 1]⟩
abbrev S1 : Shape := ⟨1, ![1]⟩
abbrev S1x1x1 : Shape := ⟨3, ![1, 1, 1]⟩
abbrev S8x3200000 : Shape := ⟨2, ![8, 3200000]⟩
abbrev S1x8x100000x32 : Shape := ⟨4, ![1, 8, 100000, 32]⟩
abbrev S1x100000x8x32 : Shape := ⟨4, ![1, 100000, 8, 32]⟩
abbrev S1x100000x256 : Shape := ⟨3, ![1, 100000, 256]⟩
abbrev S1x100000x1x32 : Shape := ⟨4, ![1, 100000, 1, 32]⟩
abbrev S100000x256 : Shape := ⟨2, ![100000, 256]⟩
abbrev S100000x32 : Shape := ⟨2, ![100000, 32]⟩
abbrev S1000x256 : Shape := ⟨2, ![1000, 256]⟩
abbrev S1000x32 : Shape := ⟨2, ![1000, 32]⟩
abbrev S1000x512 : Shape := ⟨2, ![1000, 512]⟩
abbrev S1x512 : Shape := ⟨2, ![1, 512]⟩
abbrev S1x32 : Shape := ⟨2, ![1, 32]⟩

abbrev nBuf : Space → Nat
  | .hbm => 46
  | .vmem => 10
  | .smem => 0
  | _ => 0

abbrev bufTy : (tb : Table) → Fin (tcTables nBuf tb) → BufTy
  | .hbm, ⟨0, _⟩ => ⟨S1x8x64x64x64, .f32⟩
  | .hbm, ⟨1, _⟩ => ⟨S1x100000x32, .i32⟩
  | .hbm, ⟨2, _⟩ => ⟨S256x512, .f32⟩
  | .hbm, ⟨3, _⟩ => ⟨S512, .f32⟩
  | .hbm, ⟨4, _⟩ => ⟨S512x32, .f32⟩
  | .hbm, ⟨5, _⟩ => ⟨S32, .f32⟩
  | .hbm, ⟨6, _⟩ => ⟨S1x8x262144, .f32⟩
  | .hbm, ⟨7, _⟩ => ⟨S_, .i32⟩
  | .hbm, ⟨8, _⟩ => ⟨S1x100000x32, .i32⟩
  | .hbm, ⟨9, _⟩ => ⟨S1x100000x32, .i1⟩
  | .hbm, ⟨10, _⟩ => ⟨S1x1x3200000, .i32⟩
  | .hbm, ⟨11, _⟩ => ⟨S1x8x3200000, .i32⟩
  | .hbm, ⟨12, _⟩ => ⟨S_, .i32⟩
  | .hbm, ⟨13, _⟩ => ⟨S1x8x3200000, .i32⟩
  | .hbm, ⟨14, _⟩ => ⟨S1x8x3200000, .i1⟩
  | .hbm, ⟨15, _⟩ => ⟨S_, .i32⟩
  | .hbm, ⟨16, _⟩ => ⟨S1x8x3200000, .i32⟩
  | .hbm, ⟨17, _⟩ => ⟨S1x8x3200000, .i32⟩
  | .hbm, ⟨18, _⟩ => ⟨S1x8x3200000, .i32⟩
  | .hbm, ⟨19, _⟩ => ⟨S8x3200000x1, .i32⟩
  | .hbm, ⟨20, _⟩ => ⟨S1, .i32⟩
  | .hbm, ⟨21, _⟩ => ⟨S_, .i32⟩
  | .hbm, ⟨22, _⟩ => ⟨S8x3200000x1, .i32⟩
  | .hbm, ⟨23, _⟩ => ⟨S8x3200000x1, .i1⟩
  | .hbm, ⟨24, _⟩ => ⟨S1x1x1, .i32⟩
  | .hbm, ⟨25, _⟩ => ⟨S8x3200000x1, .i32⟩
  | .hbm, ⟨26, _⟩ => ⟨S8x3200000x1, .i1⟩
  | .hbm, ⟨27, _⟩ => ⟨S8x3200000x1, .i1⟩
  | .hbm, ⟨28, _⟩ => ⟨S_, .i1⟩
  | .hbm, ⟨29, _⟩ => ⟨S8x3200000, .i1⟩
  | .hbm, ⟨30, _⟩ => ⟨S1x8x3200000, .f32⟩
  | .hbm, ⟨31, _⟩ => ⟨S1x8x3200000, .i1⟩
  | .hbm, ⟨32, _⟩ => ⟨S_, .f32⟩
  | .hbm, ⟨33, _⟩ => ⟨S1x8x3200000, .f32⟩
  | .hbm, ⟨34, _⟩ => ⟨S1x8x3200000, .f32⟩
  | .hbm, ⟨35, _⟩ => ⟨S1x8x100000x32, .f32⟩
  | .hbm, ⟨36, _⟩ => ⟨S1x100000x8x32, .f32⟩
  | .hbm, ⟨37, _⟩ => ⟨S1x100000x256, .f32⟩
  | .hbm, ⟨38, _⟩ => ⟨S1x100000x1x32, .i1⟩
  | .hbm, ⟨39, _⟩ => ⟨S1x100000x8x32, .i1⟩
  | .hbm, ⟨40, _⟩ => ⟨S1x100000x256, .i1⟩
  | .hbm, ⟨41, _⟩ => ⟨S1x100000x256, .f32⟩
  | .hbm, ⟨42, _⟩ => ⟨S100000x256, .f32⟩
  | .hbm, ⟨43, _⟩ => ⟨S100000x256, .f32⟩
  | .hbm, ⟨44, _⟩ => ⟨S100000x32, .f32⟩
  | .hbm, ⟨45, _⟩ => ⟨S1x100000x32, .f32⟩
  | .local _ .vmem, ⟨0, _⟩ => ⟨S1000x256, .f32⟩
  | .local _ .vmem, ⟨1, _⟩ => ⟨S1000x256, .f32⟩
  | .local _ .vmem, ⟨2, _⟩ => ⟨S1000x256, .f32⟩
  | .local _ .vmem, ⟨3, _⟩ => ⟨S1000x256, .f32⟩
  | .local _ .vmem, ⟨4, _⟩ => ⟨S256x512, .f32⟩
  | .local _ .vmem, ⟨5, _⟩ => ⟨S512, .f32⟩
  | .local _ .vmem, ⟨6, _⟩ => ⟨S512x32, .f32⟩
  | .local _ .vmem, ⟨7, _⟩ => ⟨S32, .f32⟩
  | .local _ .vmem, ⟨8, _⟩ => ⟨S1000x32, .f32⟩
  | .local _ .vmem, ⟨9, _⟩ => ⟨S1000x32, .f32⟩
  | _, _ => ⟨S1x8x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1000x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S1x8x64x64x64_S1x8x262144 : S1x8x64x64x64.ShapeCasts S1x8x262144
  bcast_S_S1x100000x32 : S_.BroadcastsInDim S1x100000x32 (![] : Fin 0 → Fin S1x100000x32.rank)
  shapeCasts_S1x100000x32_S1x1x3200000 : S1x100000x32.ShapeCasts S1x1x3200000
  bcast_S1x1x3200000_S1x8x3200000_0_1_2 : S1x1x3200000.BroadcastsInDim S1x8x3200000 (![0, 1, 2] : Fin 3 → Fin S1x8x3200000.rank)
  bcast_S_S1x8x3200000 : S_.BroadcastsInDim S1x8x3200000 (![] : Fin 0 → Fin S1x8x3200000.rank)
  shapeCasts_S1x8x3200000_S8x3200000x1 : S1x8x3200000.ShapeCasts S8x3200000x1
  bcast_S_S8x3200000x1 : S_.BroadcastsInDim S8x3200000x1 (![] : Fin 0 → Fin S8x3200000x1.rank)
  bcast_S1_S1x1x1_2 : S1.BroadcastsInDim S1x1x1 (![2] : Fin 1 → Fin S1x1x1.rank)
  bcast_S1x1x1_S8x3200000x1_0_1_2 : S1x1x1.BroadcastsInDim S8x3200000x1 (![0, 1, 2] : Fin 3 → Fin S8x3200000x1.rank)
  reducesTo_S8x3200000x1_S8x3200000_d2 : S8x3200000x1.ReducesTo [2] S8x3200000
  h_S_ : 0 < S_.numel
  bcast_S8x3200000_S1x8x3200000_1_2 : S8x3200000.BroadcastsInDim S1x8x3200000 (![1, 2] : Fin 2 → Fin S1x8x3200000.rank)
  shapeCasts_S1x8x3200000_S1x8x100000x32 : S1x8x3200000.ShapeCasts S1x8x100000x32
  transposes_S1x8x100000x32_S1x100000x8x32_0_2_1_3 : S1x8x100000x32.Transposes [0, 2, 1, 3] S1x100000x8x32
  shapeCasts_S1x100000x8x32_S1x100000x256 : S1x100000x8x32.ShapeCasts S1x100000x256
  bcast_S1x100000x32_S1x100000x1x32_0_1_3 : S1x100000x32.BroadcastsInDim S1x100000x1x32 (![0, 1, 3] : Fin 3 → Fin S1x100000x1x32.rank)
  bcast_S1x100000x1x32_S1x100000x8x32_0_1_2_3 : S1x100000x1x32.BroadcastsInDim S1x100000x8x32 (![0, 1, 2, 3] : Fin 4 → Fin S1x100000x8x32.rank)
  shapeCasts_S1x100000x256_S100000x256 : S1x100000x256.ShapeCasts S100000x256
  inb_S1000x256_S1000x256_0_0 : ∀ a, (![0, 0] : Fin 2 → Nat) a + S1000x256.size a ≤ S1000x256.size a
  h_S1000x256 : 0 < S1000x256.numel
  shapeCasts_S1000x256_S1000x256 : S1000x256.ShapeCasts S1000x256
  bitsLt_bf16_f32 : FTy.bits .bf16 < FTy.bits .f32
  inb_S256x512_S256x512_0_0 : ∀ a, (![0, 0] : Fin 2 → Nat) a + S256x512.size a ≤ S256x512.size a
  h_S256x512 : 0 < S256x512.numel
  inb_S512_S512_0 : ∀ a, (![0] : Fin 1 → Nat) a + S512.size a ≤ S512.size a
  h_S512 : 0 < S512.numel
  shapeCasts_S512_S1x512 : S512.ShapeCasts S1x512
  broadcasts_S1x512_S1000x512 : S1x512.Broadcasts S1000x512
  inb_S512x32_S512x32_0_0 : ∀ a, (![0, 0] : Fin 2 → Nat) a + S512x32.size a ≤ S512x32.size a
  h_S512x32 : 0 < S512x32.numel
  inb_S32_S32_0 : ∀ a, (![0] : Fin 1 → Nat) a + S32.size a ≤ S32.size a
  h_S32 : 0 < S32.numel
  shapeCasts_S32_S1x32 : S32.ShapeCasts S1x32
  broadcasts_S1x32_S1000x32 : S1x32.Broadcasts S1000x32
  inb_S1000x32_S1000x32_0_0 : ∀ a, (![0, 0] : Fin 2 → Nat) a + S1000x32.size a ≤ S1000x32.size a
  h_S1000x32 : 0 < S1000x32.numel
  bcast_S100000x32_S1x100000x32_1_2 : S100000x32.BroadcastsInDim S1x100000x32 (![1, 2] : Fin 2 → Fin S1x100000x32.rank)
  gather_S1x8x262144_S8x3200000x1_S1x8x3200000_0_2_1_0_2_2_111_wf : GatherDims.WF S1x8x262144 S8x3200000x1 S1x8x3200000 [0] [2] [1] [2] [0] 2 ![1, 1, 1]
  dot_S1000x256_S256x512_S1000x512_1_0_0_1_n_n_wf : DotDims.WF S1000x256 S256x512 S1000x512 [1] [0] [0] [1] [] []
  dot_S1000x512_S512x32_S1000x32_1_0_0_1_n_n_wf : DotDims.WF S1000x512 S512x32 S1000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x256.size a ≤ S100000x256.size a
  hwx0_0 : ∀ i : grid0.Coords, EltTy.bits .f32 = 32 ∨ (Rect.block (s := S100000x256) S1000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x256.size a ≤ S100000x256.size a
  hwx0_1 : ∀ i : grid0.Coords, EltTy.bits .f32 = 32 ∨ (Rect.block (s := S100000x256) S1000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x512.size a
  hwx0_2 : ∀ i : grid0.Coords, EltTy.bits .f32 = 32 ∨ (Rect.block (s := S256x512) S256x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x32.size a ≤ S512x32.size a
  hwx0_4 : ∀ i : grid0.Coords, EltTy.bits .f32 = 32 ∨ (Rect.block (s := S512x32) S512x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32.size a ≤ S32.size a
  hwx0_5 : ∀ i : grid0.Coords, EltTy.bits .f32 = 32 ∨ (Rect.block (s := S32) S32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1000x32.size a ≤ S100000x32.size a
  hwx0_6 : ∀ i : grid0.Coords, EltTy.bits .f32 = 32 ∨ (Rect.block (s := S100000x32) S1000x32.size (cc0_transform_6 i) (hinb0_6 i)).WholeWords (EltTy.packing .f32)

variable [Facts₀]

def gather_S1x8x262144_S8x3200000x1_S1x8x3200000_0_2_1_0_2_2_111 : GatherDims S1x8x262144 S8x3200000x1 S1x8x3200000 where
  offsetDims := [0]
  collapsedSliceDims := [2]
  operandBatchingDims := [1]
  startIndicesBatchingDims := [0]
  startIndexMap := [2]
  indexVectorDim := 2
  sliceSizes := ![1, 1, 1]
  wf := gather_S1x8x262144_S8x3200000x1_S1x8x3200000_0_2_1_0_2_2_111_wf
def dot_S1000x256_S256x512_S1000x512_1_0_0_1_n_n : DotDims S1000x256 S256x512 S1000x512 where
  lhsContracting := [1]
  rhsContracting := [0]
  lhsNonContracting := [0]
  rhsNonContracting := [1]
  lhsBatch := []
  rhsBatch := []
  wf := dot_S1000x256_S256x512_S1000x512_1_0_0_1_n_n_wf
def dot_S1000x512_S512x32_S1000x32_1_0_0_1_n_n : DotDims S1000x512 S512x32 S1000x32 where
  lhsContracting := [1]
  rhsContracting := [0]
  lhsNonContracting := [0]
  rhsNonContracting := [1]
  lhsBatch := []
  rhsBatch := []
  wf := dot_S1000x512_S512x32_S1000x32_1_0_0_1_n_n_wf

abbrev win0_0 : Pipeline.Window sig grid0 :=
  Pipeline.Window.ofSpec (Memref.whole main_v13) S1000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S1000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S1000x32.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S1x8x64x64x64 : Shape := ⟨5, ![1, 8, 64, 64, 64]⟩
abbrev S1x100000x32 : Shape := ⟨3, ![1, 100000, 32]⟩
abbrev S256x512 : Shape := ⟨2, ![256, 512]⟩
abbrev S512 : Shape := ⟨1, ![512]⟩
abbrev S512x32 : Shape := ⟨2, ![512, 32]⟩
abbrev S32 : Shape := ⟨1, ![32]⟩
abbrev S1x8x262144 : Shape := ⟨3, ![1, 8, 262144]⟩
abbrev S_ : Shape := ⟨0, ![]⟩
abbrev S1x1x3200000 : Shape := ⟨3, ![1, 1, 3200000]⟩
abbrev S1x8x3200000 : Shape := ⟨3, ![1, 8, 3200000]⟩
abbrev S8x3200000x1 : Shape := ⟨3, ![8, 3200000, 1]⟩
abbrev S1 : Shape := ⟨1, ![1]⟩
abbrev S1x1x1 : Shape := ⟨3, ![1, 1, 1]⟩
abbrev S8x3200000 : Shape := ⟨2, ![8, 3200000]⟩
abbrev S1x8x100000x32 : Shape := ⟨4, ![1, 8, 100000, 32]⟩
abbrev S1x1x100000x32 : Shape := ⟨4, ![1, 1, 100000, 32]⟩
abbrev S1x100000x8x32 : Shape := ⟨4, ![1, 100000, 8, 32]⟩
abbrev S1x100000x256 : Shape := ⟨3, ![1, 100000, 256]⟩
abbrev S1x100000x512 : Shape := ⟨3, ![1, 100000, 512]⟩
abbrev S1x1x512 : Shape := ⟨3, ![1, 1, 512]⟩
abbrev S1x1x32 : Shape := ⟨3, ![1, 1, 32]⟩

abbrev nBuf : Space → Nat
  | .hbm => 53
  | .vmem => 0
  | .smem => 0
  | _ => 0

abbrev bufTy : (tb : Table) → Fin (tcTables nBuf tb) → BufTy
  | .hbm, ⟨0, _⟩ => ⟨S1x8x64x64x64, .f32⟩
  | .hbm, ⟨1, _⟩ => ⟨S1x100000x32, .i32⟩
  | .hbm, ⟨2, _⟩ => ⟨S256x512, .f32⟩
  | .hbm, ⟨3, _⟩ => ⟨S512, .f32⟩
  | .hbm, ⟨4, _⟩ => ⟨S512x32, .f32⟩
  | .hbm, ⟨5, _⟩ => ⟨S32, .f32⟩
  | .hbm, ⟨6, _⟩ => ⟨S1x8x262144, .f32⟩
  | .hbm, ⟨7, _⟩ => ⟨S_, .i32⟩
  | .hbm, ⟨8, _⟩ => ⟨S1x100000x32, .i32⟩
  | .hbm, ⟨9, _⟩ => ⟨S1x100000x32, .i1⟩
  | .hbm, ⟨10, _⟩ => ⟨S1x1x3200000, .i32⟩
  | .hbm, ⟨11, _⟩ => ⟨S1x8x3200000, .i32⟩
  | .hbm, ⟨12, _⟩ => ⟨S_, .i32⟩
  | .hbm, ⟨13, _⟩ => ⟨S1x8x3200000, .i32⟩
  | .hbm, ⟨14, _⟩ => ⟨S1x8x3200000, .i1⟩
  | .hbm, ⟨15, _⟩ => ⟨S_, .i32⟩
  | .hbm, ⟨16, _⟩ => ⟨S1x8x3200000, .i32⟩
  | .hbm, ⟨17, _⟩ => ⟨S1x8x3200000, .i32⟩
  | .hbm, ⟨18, _⟩ => ⟨S1x8x3200000, .i32⟩
  | .hbm, ⟨19, _⟩ => ⟨S8x3200000x1, .i32⟩
  | .hbm, ⟨20, _⟩ => ⟨S1, .i32⟩
  | .hbm, ⟨21, _⟩ => ⟨S_, .i32⟩
  | .hbm, ⟨22, _⟩ => ⟨S8x3200000x1, .i32⟩
  | .hbm, ⟨23, _⟩ => ⟨S8x3200000x1, .i1⟩
  | .hbm, ⟨24, _⟩ => ⟨S1x1x1, .i32⟩
  | .hbm, ⟨25, _⟩ => ⟨S8x3200000x1, .i32⟩
  | .hbm, ⟨26, _⟩ => ⟨S8x3200000x1, .i1⟩
  | .hbm, ⟨27, _⟩ => ⟨S8x3200000x1, .i1⟩
  | .hbm, ⟨28, _⟩ => ⟨S_, .i1⟩
  | .hbm, ⟨29, _⟩ => ⟨S8x3200000, .i1⟩
  | .hbm, ⟨30, _⟩ => ⟨S1x8x3200000, .f32⟩
  | .hbm, ⟨31, _⟩ => ⟨S1x8x3200000, .i1⟩
  | .hbm, ⟨32, _⟩ => ⟨S_, .f32⟩
  | .hbm, ⟨33, _⟩ => ⟨S1x8x3200000, .f32⟩
  | .hbm, ⟨34, _⟩ => ⟨S1x8x3200000, .f32⟩
  | .hbm, ⟨35, _⟩ => ⟨S1x8x100000x32, .f32⟩
  | .hbm, ⟨36, _⟩ => ⟨S1x1x100000x32, .i1⟩
  | .hbm, ⟨37, _⟩ => ⟨S1x1x100000x32, .f32⟩
  | .hbm, ⟨38, _⟩ => ⟨S1x8x100000x32, .f32⟩
  | .hbm, ⟨39, _⟩ => ⟨S1x8x100000x32, .f32⟩
  | .hbm, ⟨40, _⟩ => ⟨S1x100000x8x32, .f32⟩
  | .hbm, ⟨41, _⟩ => ⟨S1x100000x256, .f32⟩
  | .hbm, ⟨42, _⟩ => ⟨S1x100000x512, .f32⟩
  | .hbm, ⟨43, _⟩ => ⟨S1x1x512, .f32⟩
  | .hbm, ⟨44, _⟩ => ⟨S1x100000x512, .f32⟩
  | .hbm, ⟨45, _⟩ => ⟨S1x100000x512, .f32⟩
  | .hbm, ⟨46, _⟩ => ⟨S_, .f32⟩
  | .hbm, ⟨47, _⟩ => ⟨S1x100000x512, .f32⟩
  | .hbm, ⟨48, _⟩ => ⟨S1x100000x512, .f32⟩
  | .hbm, ⟨49, _⟩ => ⟨S1x100000x32, .f32⟩
  | .hbm, ⟨50, _⟩ => ⟨S1x1x32, .f32⟩
  | .hbm, ⟨51, _⟩ => ⟨S1x100000x32, .f32⟩
  | .hbm, ⟨52, _⟩ => ⟨S1x100000x32, .f32⟩
  | _, _ => ⟨S1x8x64x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_call1_cst : Ref sig .tc := ⟨.hbm, 46, rfl⟩
abbrev main_call1_v0 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩

abbrev nD : Nat := 1
abbrev τ : Topo := Topo.v7x

variable {F : FTy → Type} [FloatOps F]

class Facts₀ : Prop where
  shapeCasts_S1x8x64x64x64_S1x8x262144 : S1x8x64x64x64.ShapeCasts S1x8x262144
  bcast_S_S1x100000x32 : S_.BroadcastsInDim S1x100000x32 (![] : Fin 0 → Fin S1x100000x32.rank)
  shapeCasts_S1x100000x32_S1x1x3200000 : S1x100000x32.ShapeCasts S1x1x3200000
  bcast_S1x1x3200000_S1x8x3200000_0_1_2 : S1x1x3200000.BroadcastsInDim S1x8x3200000 (![0, 1, 2] : Fin 3 → Fin S1x8x3200000.rank)
  bcast_S_S1x8x3200000 : S_.BroadcastsInDim S1x8x3200000 (![] : Fin 0 → Fin S1x8x3200000.rank)
  shapeCasts_S1x8x3200000_S8x3200000x1 : S1x8x3200000.ShapeCasts S8x3200000x1
  bcast_S_S8x3200000x1 : S_.BroadcastsInDim S8x3200000x1 (![] : Fin 0 → Fin S8x3200000x1.rank)
  bcast_S1_S1x1x1_2 : S1.BroadcastsInDim S1x1x1 (![2] : Fin 1 → Fin S1x1x1.rank)
  bcast_S1x1x1_S8x3200000x1_0_1_2 : S1x1x1.BroadcastsInDim S8x3200000x1 (![0, 1, 2] : Fin 3 → Fin S8x3200000x1.rank)
  reducesTo_S8x3200000x1_S8x3200000_d2 : S8x3200000x1.ReducesTo [2] S8x3200000
  h_S_ : 0 < S_.numel
  bcast_S8x3200000_S1x8x3200000_1_2 : S8x3200000.BroadcastsInDim S1x8x3200000 (![1, 2] : Fin 2 → Fin S1x8x3200000.rank)
  shapeCasts_S1x8x3200000_S1x8x100000x32 : S1x8x3200000.ShapeCasts S1x8x100000x32
  bcast_S1x100000x32_S1x1x100000x32_0_2_3 : S1x100000x32.BroadcastsInDim S1x1x100000x32 (![0, 2, 3] : Fin 3 → Fin S1x1x100000x32.rank)
  bcast_S1x1x100000x32_S1x8x100000x32_0_1_2_3 : S1x1x100000x32.BroadcastsInDim S1x8x100000x32 (![0, 1, 2, 3] : Fin 4 → Fin S1x8x100000x32.rank)
  transposes_S1x8x100000x32_S1x100000x8x32_0_2_1_3 : S1x8x100000x32.Transposes [0, 2, 1, 3] S1x100000x8x32
  shapeCasts_S1x100000x8x32_S1x100000x256 : S1x100000x8x32.ShapeCasts S1x100000x256
  bcast_S512_S1x1x512_2 : S512.BroadcastsInDim S1x1x512 (![2] : Fin 1 → Fin S1x1x512.rank)
  bcast_S1x1x512_S1x100000x512_0_1_2 : S1x1x512.BroadcastsInDim S1x100000x512 (![0, 1, 2] : Fin 3 → Fin S1x100000x512.rank)
  bcast_S_S1x100000x512 : S_.BroadcastsInDim S1x100000x512 (![] : Fin 0 → Fin S1x100000x512.rank)
  bcast_S32_S1x1x32_2 : S32.BroadcastsInDim S1x1x32 (![2] : Fin 1 → Fin S1x1x32.rank)
  bcast_S1x1x32_S1x100000x32_0_1_2 : S1x1x32.BroadcastsInDim S1x100000x32 (![0, 1, 2] : Fin 3 → Fin S1x100000x32.rank)
  gather_S1x8x262144_S8x3200000x1_S1x8x3200000_0_2_1_0_2_2_111_wf : GatherDims.WF S1x8x262144 S8x3200000x1 S1x8x3200000 [0] [2] [1] [2] [0] 2 ![1, 1, 1]
  dot_S1x100000x256_S256x512_S1x100000x512_2_0_01_1_n_n_wf : DotDims.WF S1x100000x256 S256x512 S1x100000x512 [2] [0] [0, 1] [1] [] []
  dot_S1x100000x512_S512x32_S1x100000x32_2_0_01_1_n_n_wf : DotDims.WF S1x100000x512 S512x32 S1x100000x32 [2] [0] [0, 1] [1] [] []

variable [Facts₀]

def gather_S1x8x262144_S8x3200000x1_S1x8x3200000_0_2_1_0_2_2_111 : GatherDims S1x8x262144 S8x3200000x1 S1x8x3200000 where
  offsetDims := [0]
  collapsedSliceDims := [2]
  operandBatchingDims := [1]
  startIndicesBatchingDims := [0]
  startIndexMap := [2]
  indexVectorDim := 2
  sliceSizes := ![1, 1, 1]
  wf := gather_S1x8x262144_S8x3200000x1_S1x8x3200000_0_2_1_0_2_2_111_wf
def dot_S1x100000x256_S256x512_S1x100000x512_2_0_01_1_n_n : DotDims S1x100000x256 S256x512 S1x100000x512 where
  lhsContracting := [2]
  rhsContracting := [0]
  lhsNonContracting := [0, 1]
  rhsNonContracting := [1]
  lhsBatch := []
  rhsBatch := []
  wf := dot_S1x100000x256_S256x512_S1x100000x512_2_0_01_1_n_n_wf
def dot_S1x100000x512_S512x32_S1x100000x32_2_0_01_1_n_n : DotDims S1x100000x512 S512x32 S1x100000x32 where
  lhsContracting := [2]
  rhsContracting := [0]
  lhsNonContracting := [0, 1]
  rhsNonContracting := [1]
  lhsBatch := []
  rhsBatch := []
  wf := dot_S1x100000x512_S512x32_S1x100000x32_2_0_01_1_n_n_wf

class Facts : Prop extends Facts₀ where

variable [Facts]
-- ==== Proof.Spec.lean ====
/-
  What both programs compute, as one function of the gathered grid values, the neighbour mask and the four weight arrays.

  A point n of the 100000 has 32 neighbours; the grid encoding has 8 channels. The gathered array g holds, at
  (0, c, 32 n + k), channel c's value at neighbour k of point n, and mf holds at (0, n, k) the neighbour's mask as a
  number (0 or 1). Point n's feature row has 256 entries, entry d = 32 c + k being g (0, c, 32 n + k) · mf (0, n, k):
  the channels' 32-entry runs laid side by side. The row goes through a dense layer of 512 units with bias, the
  maximum with zero, and a dense layer of 32 units with bias.
-/
import Idealize.ShloMosaic.PureOps.Ideal
import Idealize.ShloMosaic.Lib.ValueIdx

noncomputable section

namespace Cert.Spec

open Idealize.ShloMosaic Idealize.ShloMosaic.ValueIdx

/-- A 256-entry row x through the two dense layers, at output unit j:
    (Σ_h max (Σ_d x_d · W1 (d, h) + b1 h, 0) · W2 (h, j)) + b2 j. -/
def mlpRow (x : Fin 256 → EReal) (W1 : FVec Ideal ⟨2, ![256, 512]⟩ .f32) (b1 : FVec Ideal ⟨1, ![512]⟩ .f32)
    (W2 : FVec Ideal ⟨2, ![512, 32]⟩ .f32) (b2 : FVec Ideal ⟨1, ![32]⟩ .f32) (j : Fin 32) : EReal :=
  (∑ h : Fin 512, max ((∑ d : Fin 256, x d * W1 (ix2 d h)) + b1 (ix1 h)) (Ideal.ofBits .f32 0x00000000#32) * W2 (ix2 h j))
    + b2 (ix1 j)

/-- The channel of feature column d = 32 c + k. -/
abbrev chan (d : Fin 256) : Fin 8 := ⟨d.val / 32, by have := d.isLt; omega⟩
/-- The neighbour of feature column d = 32 c + k. -/
abbrev nbr (d : Fin 256) : Fin 32 := ⟨d.val % 32, by omega⟩
/-- The position 32 n + k of neighbour k of point n in the flattened list of all points' neighbours. -/
abbrev flat (n : Fin 100000) (k : Fin 32) : Fin 3200000 := ⟨n.val * 32 + k.val, by have := n.isLt; have := k.isLt; omega⟩

/-- Point n's masked feature row. -/
def feat (g : FVec Ideal ⟨3, ![1, 8, 3200000]⟩ .f32) (mf : FVec Ideal ⟨3, ![1, 100000, 32]⟩ .f32) (n : Fin 100000) (d : Fin 256) : EReal :=
  g (ix3 0 (chan d) (flat n (nbr d))) * mf (ix3 0 n (nbr d))

/-- The whole result: point n's feature row through the two layers. -/
def out (g : FVec Ideal ⟨3, ![1, 8, 3200000]⟩ .f32) (mf : FVec Ideal ⟨3, ![1, 100000, 32]⟩ .f32)
    (W1 : FVec Ideal ⟨2, ![256, 512]⟩ .f32) (b1 : FVec Ideal ⟨1, ![512]⟩ .f32)
    (W2 : FVec Ideal ⟨2, ![512, 32]⟩ .f32) (b2 : FVec Ideal ⟨1, ![32]⟩ .f32) : FVec Ideal ⟨3, ![1, 100000, 32]⟩ .f32 :=
  fun i => mlpRow (feat g mf (i 1)) W1 b1 W2 b2 (i 2)

theorem out_apply (g : FVec Ideal ⟨3, ![1, 8, 3200000]⟩ .f32) (mf : FVec Ideal ⟨3, ![1, 100000, 32]⟩ .f32)
    (W1 : FVec Ideal ⟨2, ![256, 512]⟩ .f32) (b1 : FVec Ideal ⟨1, ![512]⟩ .f32)
    (W2 : FVec Ideal ⟨2, ![512, 32]⟩ .f32) (b2 : FVec Ideal ⟨1, ![32]⟩ .f32) (n : Fin 100000) (j : Fin 32) :
    out g mf W1 b1 W2 b2 (ix3 0 n j) = mlpRow (feat g mf n) W1 b1 W2 b2 j := rfl

end Cert.Spec

end
-- ==== Proof.RefSpec.lean ====
/-
  The reference computes the specification.

  Read stage by stage at an entry (0, n, j), the reference's result is the second dense layer's sum over the 512 hidden
  units plus its bias; a hidden unit is the maximum with zero of the first layer's sum over the 256 feature columns
  plus its bias; and feature column d of point n is read back through the reshape, the transposition and the
  multiplication to the gathered value of channel d / 32 at position 32 n + d % 32 times the mask of neighbour d % 32
  of point n. The gathered array and the mask bits are left as the reference's own stages.
-/
import proofs.«165429_j49435073577117_1_alg».proof.Proof.RefRead
import proofs.«165429_j49435073577117_1_alg».proof.Proof.Spec
import Idealize.ShloMosaic.Lib.ValueIdx

noncomputable section

namespace Cert.ReferenceIdeal.RefSpec

open Cert.ReferenceIdeal Cert.ReferenceIdeal.Gen Cert.ReferenceIdeal.ReadP Cert.Spec
open Idealize.ShloMosaic Idealize.ShloMosaic.TcCoe Idealize.ShloMosaic.ValueIdx

variable (x0 : (⟨S1x8x64x64x64, .f32⟩ : BufTy).Contents (Elt Ideal)) (x1 : (⟨S1x100000x32, .i32⟩ : BufTy).Contents (Elt Ideal))
  (x2 : (⟨S256x512, .f32⟩ : BufTy).Contents (Elt Ideal)) (x3 : (⟨S512, .f32⟩ : BufTy).Contents (Elt Ideal))
  (x4 : (⟨S512x32, .f32⟩ : BufTy).Contents (Elt Ideal)) (x5 : (⟨S32, .f32⟩ : BufTy).Contents (Elt Ideal))

/-- Column d = 32 c + k of row n, pushed through the reference's re-layouts, is channel c … -/
theorem relaid_chan (n d : Nat) (hn : n < 100000) (hd : d < 256) :
    (((0 * 8 + ((0 * 100000 + n) * 256 + d) / 32 % 8) * 100000 + ((0 * 100000 + n) * 256 + d) / 256 % 100000) * 32
        + ((0 * 100000 + n) * 256 + d) % 32) / 3200000 % 8 = d / 32 := by
  have h1 : ((0 * 100000 + n) * 256 + d) / 32 = 8 * n + d / 32 := by omega
  have h2 : ((0 * 100000 + n) * 256 + d) / 256 = n := by omega
  have h3 : ((0 * 100000 + n) * 256 + d) % 32 = d % 32 := by omega
  rw [h1, h2, h3]
  have h4 : (8 * n + d / 32) % 8 = d / 32 := by omega
  have h5 : n % 100000 = n := Nat.mod_eq_of_lt hn
  rw [h4, h5]
  omega

/-- … at position 32 n + k of the flattened neighbour list. -/
theorem relaid_flat (n d : Nat) (hn : n < 100000) (hd : d < 256) :
    (((0 * 8 + ((0 * 100000 + n) * 256 + d) / 32 % 8) * 100000 + ((0 * 100000 + n) * 256 + d) / 256 % 100000) * 32
        + ((0 * 100000 + n) * 256 + d) % 32) % 3200000 = n * 32 + d % 32 := by
  have h1 : ((0 * 100000 + n) * 256 + d) / 32 = 8 * n + d / 32 := by omega
  have h2 : ((0 * 100000 + n) * 256 + d) / 256 = n := by omega
  have h3 : ((0 * 100000 + n) * 256 + d) % 32 = d % 32 := by omega
  rw [h1, h2, h3]
  have h4 : (8 * n + d / 32) % 8 = d / 32 := by omega
  have h5 : n % 100000 = n := Nat.mod_eq_of_lt hn
  rw [h4, h5]
  have h6 : ((0 * 8 + d / 32) * 100000 + n) * 32 + d % 32 = 3200000 * (d / 32) + (n * 32 + d % 32) := by omega
  rw [h6, Nat.mul_add_mod]
  exact Nat.mod_eq_of_lt (by omega)

/-- The mask as numbers: the reference's mask bits, converted. -/
abbrev maskf : FVec Ideal S1x100000x32 .f32 := uitofp (F := Ideal) .f32 (val_main_v2 (F := Ideal) x1)

/-- Feature column d of point n, as the reference lays it out before the first dense layer. -/
theorem feat_apply (n : Fin 100000) (d : Fin 256) :
    val_main_v12 (F := Ideal) x0 x1 (ix3 0 n d) = feat (val_main_v5 (F := Ideal) x0 x1) (maskf x1) n d := by
  have hd : d.val < 256 := d.isLt
  have hn : n.val < 100000 := n.isLt
  rw [val_main_v12_apply, val_main_v11_apply, val_main_v10_apply, val_main_v6_apply, val_main_v9_apply,
    val_main_v8_apply, val_main_v7_apply]
  have e5 : idx_main_v6 (idx_main_v11 (idx_main_v12 (ix3 (0 : Fin 1) n d))) = ix3 (0 : Fin 1) (chan d) (flat n (nbr d)) :=
    funext fun a => Fin.ext (by
      match a with
      | ⟨0, _⟩ => rfl
      | ⟨1, _⟩ => exact relaid_chan n.val d.val hn hd
      | ⟨2, _⟩ => exact relaid_flat n.val d.val hn hd)
  have e6 : idx_main_v7 (idx_main_v9 (idx_main_v11 (idx_main_v12 (ix3 (0 : Fin 1) n d)))) = ix3 (0 : Fin 1) n (nbr d) :=
    funext fun a => Fin.ext (by
      match a with
      | ⟨0, _⟩ => rfl
      | ⟨1, _⟩ => show ((0 * 100000 + n.val) * 256 + d.val) / 256 % 100000 = n.val; omega
      | ⟨2, _⟩ => show ((0 * 100000 + n.val) * 256 + d.val) % 32 = d.val % 32; omega)
  rw [e5, e6]
  rfl

/-- Hidden unit h of point n. -/
theorem hidden_apply (n : Fin 100000) (h : Fin 512) :
    val_main_v17 (F := Ideal) x0 x1 x2 x3 (ix3 0 n h)
      = max ((∑ d : Fin 256, feat (val_main_v5 (F := Ideal) x0 x1) (maskf x1) n d * x2 (ix2 d h)) + x3 (ix1 h))
          (Ideal.ofBits .f32 0x00000000#32) := by
  rw [val_main_v17_apply, val_main_v16_apply, val_main_v13_apply, val_main_call1_v0_apply, val_main_call1_cst_apply,
    val_main_v15_apply, val_main_v14_apply]
  have e7 : idx_main_v14 (idx_main_v15 (ix3 (0 : Fin 1) n h)) = ix1 h :=
    funext fun a => Fin.ext (by match a with | ⟨0, _⟩ => rfl)
  have e3 : ∀ d : Fin 256, lidx_main_v13 (ix3 (0 : Fin 1) n h) d = ix3 (0 : Fin 1) n d := fun d =>
    funext fun a => Fin.ext (by match a with | ⟨0, _⟩ => rfl | ⟨1, _⟩ => rfl | ⟨2, _⟩ => rfl)
  have e4 : ∀ d : Fin 256, ridx_main_v13 (ix3 (0 : Fin 1) n h) d = ix2 d h := fun d =>
    funext fun a => Fin.ext (by match a with | ⟨0, _⟩ => rfl | ⟨1, _⟩ => rfl)
  rw [e7]
  simp only [e3, e4, feat_apply, Ideal.addf_def, Ideal.maximumf_def, Ideal.ofBits_def]

/-- The reference's result is the specification of its own gathered array and mask. -/
theorem result_eq :
    val_main_v21 (F := Ideal) x0 x1 x2 x3 x4 x5
      = out (val_main_v5 (F := Ideal) x0 x1) (maskf x1) x2 x3 x4 x5 := by
  funext i
  obtain ⟨u, n, j, rfl⟩ : ∃ (u : Fin 1) (n : Fin 100000) (j : Fin 32), i = ix3 u n j := ⟨i 0, i 1, i 2, eq_ix3 i⟩
  obtain rfl : u = 0 := Fin.ext (by have := u.isLt; omega)
  rw [out_apply]
  unfold mlpRow
  rw [val_main_v21_apply, val_main_v18_apply, val_main_v20_apply, val_main_v19_apply]
  have e8 : idx_main_v19 (idx_main_v20 (ix3 (0 : Fin 1) n j)) = ix1 j :=
    funext fun a => Fin.ext (by match a with | ⟨0, _⟩ => rfl)
  have e1 : ∀ h : Fin 512, lidx_main_v18 (ix3 (0 : Fin 1) n j) h = ix3 (0 : Fin 1) n h := fun h =>
    funext fun a => Fin.ext (by match a with | ⟨0, _⟩ => rfl | ⟨1, _⟩ => rfl | ⟨2, _⟩ => rfl)
  have e2 : ∀ h : Fin 512, ridx_main_v18 (ix3 (0 : Fin 1) n j) h = ix2 h j := fun h =>
    funext fun a => Fin.ext (by match a with | ⟨0, _⟩ => rfl | ⟨1, _⟩ => rfl)
  rw [e8]
  simp only [e1, e2, hidden_apply, Ideal.addf_def]

end Cert.ReferenceIdeal.RefSpec

end
-- ==== Proof.LibDotSum.lean ====
/-
  A matrix product with ONE contracted axis, read at an output index as a sum over that axis's coordinate.
  The library states the product's value as a sum over the dimension numbers' contraction index set of the operands at
  two computed operand indices. For the two patterns below the contraction index is one coordinate `k`, and the operand
  indices are (r, k), (k, c) for rows × columns, and (k, r), (k, c) when the left operand is contracted over its rows.
  Each is stated for any extents and any dimension-numbers record with those axis lists.
-/
import Idealize.ShloMosaic.PureOps.Ideal.Laws
import Idealize.ShloMosaic.Lib.ValueIdx

noncomputable section

namespace Cert.Lib

open Idealize.ShloMosaic Idealize.ShloMosaic.ValueIdx

variable {M K N : Nat}

/-! ## Rows × columns: left axis 1 against right axis 0 -/

/-- The dimension numbers of an [M, K] × [K, N] product. -/
def rc (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

variable (wf : DotDims.WF ⟨2, ![M, K]⟩ ⟨2, ![K, N]⟩ ⟨2, ![M, N]⟩ [1] [0] [0] [1] [] [])

theorem rc_lhs_0 (i : (⟨2, ![M, N]⟩ : Shape).Idx) (q : (rc wf).contr.Idx) : ((rc wf).lhsIdx i q 0).val = (i 0).val := by
  unfold DotDims.lhsIdx
  rw [dif_neg (show ¬(0 : Fin (⟨2, ![M, K]⟩ : Shape).rank) ∈ (rc wf).lhsBatch by simp [rc]),
    dif_pos (show (0 : Fin (⟨2, ![M, K]⟩ : Shape).rank) ∈ (rc wf).lhsNonContracting by simp [rc])]
  rfl
theorem rc_lhs_1 (i : (⟨2, ![M, N]⟩ : Shape).Idx) (q : (rc wf).contr.Idx) :
    ((rc wf).lhsIdx i q 1).val = (q ⟨0, Nat.one_pos⟩).val :=
  (rc wf).lhsIdx_val_of_single rfl i q
theorem rc_rhs_0 (i : (⟨2, ![M, N]⟩ : Shape).Idx) (q : (rc wf).contr.Idx) :
    ((rc wf).rhsIdx i q 0).val = (q ⟨0, Nat.one_pos⟩).val :=
  (rc wf).rhsIdx_val_of_single rfl i q
theorem rc_rhs_1 (i : (⟨2, ![M, N]⟩ : Shape).Idx) (q : (rc wf).contr.Idx) : ((rc wf).rhsIdx i q 1).val = (i 1).val := by
  unfold DotDims.rhsIdx
  rw [dif_neg (show ¬(1 : Fin (⟨2, ![K, N]⟩ : Shape).rank) ∈ (rc wf).rhsBatch by simp [rc]),
    dif_pos (show (1 : Fin (⟨2, ![K, N]⟩ : Shape).rank) ∈ (rc wf).rhsNonContracting by simp [rc])]
  rfl

/-- The contraction sum of a rows × columns product at (r, c) runs over the pairs (r, k), (k, c). -/
theorem sum_rc {β : Type} [AddCommMonoid β] (f : (⟨2, ![M, K]⟩ : Shape).Idx → (⟨2, ![K, N]⟩ : Shape).Idx → β)
    (r : Fin M) (c : Fin N) :
    ∑ k : (rc wf).contr.Idx, f ((rc wf).lhsIdx (ix2 r c) k) ((rc wf).rhsIdx (ix2 r c) k)
      = ∑ k : Fin K, f (ix2 r k) (ix2 k c) := by
  rw [← Equiv.sum_comp (contrEquiv1 (rc wf) K rfl rfl).symm]
  refine Finset.sum_congr rfl fun k _ => ?_
  have hk := contrEquiv1_symm_val (rc wf) K rfl rfl k
  have el : (rc wf).lhsIdx (ix2 r c) ((contrEquiv1 (rc wf) K rfl rfl).symm k) = ix2 r k := funext fun a => Fin.ext (by
    match a with
    | ⟨0, _⟩ => exact rc_lhs_0 wf _ _
    | ⟨1, _⟩ => exact (rc_lhs_1 wf _ _).trans hk)
  have er : (rc wf).rhsIdx (ix2 r c) ((contrEquiv1 (rc wf) K rfl rfl).symm k) = ix2 k c := funext fun a => Fin.ext (by
    match a with
    | ⟨0, _⟩ => exact (rc_rhs_0 wf _ _).trans hk
    | ⟨1, _⟩ => exact rc_rhs_1 wf _ _)
  rw [el, er]

/-- The same for any record with those axis lists. -/
theorem sum_contr_rc {β : Type} [AddCommMonoid β] (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (f : (⟨2, ![M, K]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 r k) (ix2 k c) := by
  obtain ⟨lc, rc', ln, rn, lb, rb, wf'⟩ := d
  simp only at hlc hrc hln hrn hlb hrb
  subst hlc hrc hln hrn hlb hrb
  exact sum_rc wf' f r c

/-! ## Left operand contracted over its rows: left axis 0 against right axis 0 -/

/-- The dimension numbers of a [K, M]ᵀ × [K, N] product. -/
def cc (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ := ⟨[0], [0], [1], [1], [], [], wf⟩

variable (wg : DotDims.WF ⟨2, ![K, M]⟩ ⟨2, ![K, N]⟩ ⟨2, ![M, N]⟩ [0] [0] [1] [1] [] [])

theorem cc_lhs_0 (i : (⟨2, ![M, N]⟩ : Shape).Idx) (q : (cc wg).contr.Idx) :
    ((cc wg).lhsIdx i q 0).val = (q ⟨0, Nat.one_pos⟩).val :=
  (cc wg).lhsIdx_val_of_single rfl i q
theorem cc_lhs_1 (i : (⟨2, ![M, N]⟩ : Shape).Idx) (q : (cc wg).contr.Idx) : ((cc wg).lhsIdx i q 1).val = (i 0).val := by
  unfold DotDims.lhsIdx
  rw [dif_neg (show ¬(1 : Fin (⟨2, ![K, M]⟩ : Shape).rank) ∈ (cc wg).lhsBatch by simp [cc]),
    dif_pos (show (1 : Fin (⟨2, ![K, M]⟩ : Shape).rank) ∈ (cc wg).lhsNonContracting by simp [cc])]
  rfl
theorem cc_rhs_0 (i : (⟨2, ![M, N]⟩ : Shape).Idx) (q : (cc wg).contr.Idx) :
    ((cc wg).rhsIdx i q 0).val = (q ⟨0, Nat.one_pos⟩).val :=
  (cc wg).rhsIdx_val_of_single rfl i q
theorem cc_rhs_1 (i : (⟨2, ![M, N]⟩ : Shape).Idx) (q : (cc wg).contr.Idx) : ((cc wg).rhsIdx i q 1).val = (i 1).val := by
  unfold DotDims.rhsIdx
  rw [dif_neg (show ¬(1 : Fin (⟨2, ![K, N]⟩ : Shape).rank) ∈ (cc wg).rhsBatch by simp [cc]),
    dif_pos (show (1 : Fin (⟨2, ![K, N]⟩ : Shape).rank) ∈ (cc wg).rhsNonContracting by simp [cc])]
  rfl

/-- The contraction sum at (r, c) runs over the pairs (k, r), (k, c). -/
theorem sum_cc {β : Type} [AddCommMonoid β] (f : (⟨2, ![K, M]⟩ : Shape).Idx → (⟨2, ![K, N]⟩ : Shape).Idx → β)
    (r : Fin M) (c : Fin N) :
    ∑ k : (cc wg).contr.Idx, f ((cc wg).lhsIdx (ix2 r c) k) ((cc wg).rhsIdx (ix2 r c) k)
      = ∑ k : Fin K, f (ix2 k r) (ix2 k c) := by
  rw [← Equiv.sum_comp (contrEquiv1 (cc wg) K rfl rfl).symm]
  refine Finset.sum_congr rfl fun k _ => ?_
  have hk := contrEquiv1_symm_val (cc wg) K rfl rfl k
  have el : (cc wg).lhsIdx (ix2 r c) ((contrEquiv1 (cc wg) K rfl rfl).symm k) = ix2 k r := funext fun a => Fin.ext (by
    match a with
    | ⟨0, _⟩ => exact (cc_lhs_0 wg _ _).trans hk
    | ⟨1, _⟩ => exact cc_lhs_1 wg _ _)
  have er : (cc wg).rhsIdx (ix2 r c) ((contrEquiv1 (cc wg) K rfl rfl).symm k) = ix2 k c := funext fun a => Fin.ext (by
    match a with
    | ⟨0, _⟩ => exact (cc_rhs_0 wg _ _).trans hk
    | ⟨1, _⟩ => exact cc_rhs_1 wg _ _)
  rw [el, er]

/-- The same for any record with those axis lists. -/
theorem sum_contr_cc {β : Type} [AddCommMonoid β] (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = [])
    (f : (⟨2, ![K, M]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 k r) (ix2 k c) := by
  obtain ⟨lc, rc', ln, rn, lb, rb, wf'⟩ := d
  simp only at hlc hrc hln hrn hlb hrb
  subst hlc hrc hln hrn hlb hrb
  exact sum_cc wf' f r c

/-! ## The products themselves, at an output index -/

/-- A rows × columns block product into the zero accumulator, at (r, c): the sum over k of A (r, k) · B (k, c). -/
theorem matmul_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 r k) * B (ix2 k c) := by
  simp only [matmul]
  rw [Ideal.matmul_constant_zero_apply]
  exact sum_contr_rc d hlc hrc hln hrn hlb hrb (fun a b => A a * B b) r c

/-- A block product whose left operand is contracted over its rows, into the zero accumulator, at (r, c): the sum over
    k of A (k, r) · B (k, c). -/
theorem matmul_cc_apply {φ₁ φ₂ : FTy} (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = []) (prec : Option ContractPrecision)
    (A : FVec Ideal ⟨2, ![K, M]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 k r) * B (ix2 k c) := by
  simp only [matmul]
  rw [Ideal.matmul_constant_zero_apply]
  exact sum_contr_cc d hlc hrc hln hrn hlb hrb (fun a b => A a * B b) r c

/-- The host's rows × columns product at (r, c): the same sum. -/
theorem dotGeneral_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    Host.dotGeneral d prec A B (ix2 r c) = ∑ k : Fin K, A (ix2 r k) * B (ix2 k c) := by
  simp only [Host.dotGeneral]
  rw [Ideal.dotGeneral_apply]
  exact sum_contr_rc d hlc hrc hln hrn hlb hrb (fun a b => A a * B b) r c

end Cert.Lib

end
-- ==== Proof.Body.lean ====
/-
  The kernel body's stored value at an entry.

  At one grid point the body holds a 1000-row block of the feature array and of the mask array. It multiplies them
  entry by entry, takes the product with the first weight matrix, adds the first bias to every row, takes the
  maximum with zero, takes the product with the second weight matrix and adds the second bias to every row. Read at
  (r, j) over the extended reals, where narrowing a float's format changes nothing, that is the two-layer function
  of the block's row r: row r of the feature block times row r of the mask block, entry by entry.
-/
import proofs.«165429_j49435073577117_1_alg».proof.Proof.Gen.KernelIdeal.Skeleton
import proofs.«165429_j49435073577117_1_alg».proof.Proof.LibDotSum
import proofs.«165429_j49435073577117_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Idealize.ShloMosaic Idealize.ShloMosaic.TcCoe Idealize.ShloMosaic.ValueIdx Cert.KernelIdeal Cert.KernelIdeal.Gen

/-- A 512-entry bias, cast to one row and repeated over 1000 rows, read at (r, h): the bias at h. -/
theorem bias1_apply (b : FVec Ideal S512 .f32) (r : Fin 1000) (h : Fin 512) :
    broadcastTo S1000x512 (shapeCast S1x512 b shapeCasts_S512_S1x512) broadcasts_S1x512_S1000x512 (ix2 r h) = b (ix1 h) :=
  (broadcastTo_1b_ab_apply _ _ r h).trans (shapeCast_a_1a_apply _ _ 0 h)

/-- A 32-entry bias, cast to one row and repeated over 1000 rows, read at (r, j): the bias at j. -/
theorem bias2_apply (b : FVec Ideal S32 .f32) (r : Fin 1000) (j : Fin 32) :
    broadcastTo S1000x32 (shapeCast S1x32 b shapeCasts_S32_S1x32) broadcasts_S1x32_S1000x32 (ix2 r j) = b (ix1 j) :=
  (broadcastTo_1b_ab_apply _ _ r j).trans (shapeCast_a_1a_apply _ _ 0 j)

/-- The first product of the body at (r, h): the sum over the 256 feature columns. -/
theorem dot1_apply (A : FVec Ideal S1000x256 .bf16) (B : FVec Ideal S256x512 .bf16) (r : Fin 1000) (h : Fin 512) :
    matmul dot_S1000x256_S256x512_S1000x512_1_0_0_1_n_n none A B (constant S1000x512 .f32 0x00000000#32) (ix2 r h)
      = ∑ d : Fin 256, A (ix2 r d) * B (ix2 d h) :=
  Cert.Lib.matmul_rc_apply dot_S1000x256_S256x512_S1000x512_1_0_0_1_n_n rfl rfl rfl rfl rfl rfl none A B r h

/-- The second product of the body at (r, j): the sum over the 512 hidden units. -/
theorem dot2_apply (A : FVec Ideal S1000x512 .bf16) (B : FVec Ideal S512x32 .bf16) (r : Fin 1000) (j : Fin 32) :
    matmul dot_S1000x512_S512x32_S1000x32_1_0_0_1_n_n none A B (constant S1000x32 .f32 0x00000000#32) (ix2 r j)
      = ∑ h : Fin 512, A (ix2 r h) * B (ix2 h j) :=
  Cert.Lib.matmul_rc_apply dot_S1000x512_S512x32_S1000x32_1_0_0_1_n_n rfl rfl rfl rfl rfl rfl none A B r j

/-- The body's stored value at (r, j) is the two-layer function of row r of the entrywise product of its two
    1000 × 256 blocks. -/
theorem pay_apply (x0 x1 : Vec Ideal S1000x256 .f32) (w1 : Vec Ideal S256x512 .f32) (b1 : Vec Ideal S512 .f32)
    (w2 : Vec Ideal S512x32 .f32) (b2 : Vec Ideal S32 .f32) (r : Fin 1000) (j : Fin 32) :
    k0_pay1 (F := Ideal) x0 x1 w1 b1 w2 b2 (ix2 r j)
      = Cert.Spec.mlpRow (fun d => x0 (ix2 r d) * x1 (ix2 r d)) w1 b1 w2 b2 j := by
  unfold k0_pay1 Cert.Spec.mlpRow
  simp only [addf_apply, dot2_apply, dot1_apply, bias1_apply, bias2_apply, truncf_apply, maximumf_apply, mulf_apply,
    broadcast_apply, shapeCast_self]
  rfl

end Cert.KernelIdeal.Body

end
-- ==== Proof.KernelRows.lean ====
/-
  What the kernel's region leaves in its output array, and what the program returns.

  The region runs over 100 grid points. Point t is given rows 1000 t … 1000 t + 999 of the feature array and of the
  mask array and the four weight arrays whole, and writes rows 1000 t … 1000 t + 999 of the output array [100000, 32].
  By the body's value at an entry, row n of the output is the two-layer function of row n of the entrywise product of
  the feature and mask arrays. The 100 row blocks cover the output, so the whole array is that function, and the
  program returns it with a leading axis of extent one.
-/
import proofs.«165429_j49435073577117_1_alg».proof.Proof.Gen.KernelIdeal.Frame
import proofs.«165429_j49435073577117_1_alg».proof.Proof.Body
import proofs.«165429_j49435073577117_1_alg».proof.Proof.Spec
import Idealize.ShloMosaic.Lib.Pipeline.Value
import Idealize.ShloMosaic.Lib.ValueIdx

set_option maxRecDepth 16384

noncomputable section

namespace Cert.KernelIdeal.Rows

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (m : (ℓ : Loc nD τ sig) → Buf (Elt Ideal) ℓ) (ρ : Dev nD → PrngReg)

/-! ## The arrays the region finds, and a point's blocks of them, at their literal types -/

abbrev xarr (c : Dev nD) : Vec Ideal S100000x256 .f32 := V m c main_v13
abbrev marr (c : Dev nD) : Vec Ideal S100000x256 .f32 := V m c main_v14
abbrev w1arr (c : Dev nD) : Vec Ideal S256x512 .f32 := V m c main_arg2
abbrev b1arr (c : Dev nD) : Vec Ideal S512 .f32 := V m c main_arg3
abbrev w2arr (c : Dev nD) : Vec Ideal S512x32 .f32 := V m c main_arg4
abbrev b2arr (c : Dev nD) : Vec Ideal S32 .f32 := V m c main_arg5

abbrev xblk (c : Dev nD) (t : Fin cfg0.N) : Vec Ideal S1000x256 .f32 := iblk m c 0 t
abbrev mblk (c : Dev nD) (t : Fin cfg0.N) : Vec Ideal S1000x256 .f32 := iblk m c 1 t
abbrev w1blk (c : Dev nD) (t : Fin cfg0.N) : Vec Ideal S256x512 .f32 := iblk m c 2 t
abbrev b1blk (c : Dev nD) (t : Fin cfg0.N) : Vec Ideal S512 .f32 := iblk m c 3 t
abbrev w2blk (c : Dev nD) (t : Fin cfg0.N) : Vec Ideal S512x32 .f32 := iblk m c 4 t
abbrev b2blk (c : Dev nD) (t : Fin cfg0.N) : Vec Ideal S32 .f32 := iblk m c 5 t

/-- Row r of point t's block is row 1000 t + r of the array. -/
abbrev rowOf (t : Fin cfg0.N) (r : Fin 1000) : Fin 100000 :=
  ⟨t.val * 1000 + r.val, by have h : t.val < 100 := t.isLt; have := r.isLt; omega⟩

/-- The printed index maps over the grid: the row-blocked windows are at block row t, the weights at block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0)

/-! ## A point's blocks read off any arrays of the windows' shapes

Each is stated for an arbitrary array, so that what the region's arrays are is never looked into. -/

theorem read0 (A : Vec Ideal S100000x256 .f32) (t : Fin cfg0.N) (r : Fin 1000) (d : Fin 256) :
    ((cfg0.win 0).blk t).view.read (Elt Ideal) A (ix2 r d) = A (ix2 (rowOf t r) d) := by
  obtain ⟨e0, e1, -⟩ := idx_facts t
  show A (((cfg0.win 0).blk t).view.emb (ix2 r d)) = A (ix2 (rowOf t r) d)
  refine congrArg A (funext fun a => Fin.ext ?_)
  match a with
  | ⟨0, _⟩ => show win0_0.index t (0 : Fin 2) * 1000 + 1 * r.val = t.val * 1000 + r.val; omega
  | ⟨1, _⟩ => show win0_0.index t (1 : Fin 2) * 256 + 1 * d.val = d.val; omega

theorem read1 (A : Vec Ideal S100000x256 .f32) (t : Fin cfg0.N) (r : Fin 1000) (d : Fin 256) :
    ((cfg0.win 1).blk t).view.read (Elt Ideal) A (ix2 r d) = A (ix2 (rowOf t r) d) := by
  obtain ⟨-, -, e0, e1, -⟩ := idx_facts t
  show A (((cfg0.win 1).blk t).view.emb (ix2 r d)) = A (ix2 (rowOf t r) d)
  refine congrArg A (funext fun a => Fin.ext ?_)
  match a with
  | ⟨0, _⟩ => show win0_1.index t (0 : Fin 2) * 1000 + 1 * r.val = t.val * 1000 + r.val; omega
  | ⟨1, _⟩ => show win0_1.index t (1 : Fin 2) * 256 + 1 * d.val = d.val; omega

theorem read2 (A : Vec Ideal S256x512 .f32) (t : Fin cfg0.N) : ((cfg0.win 2).blk t).view.read (Elt Ideal) A = A := by
  obtain ⟨-, -, -, -, e0, e1, -⟩ := idx_facts t
  funext j
  show A (((cfg0.win 2).blk t).view.emb j) = A j
  refine congrArg A (funext fun a => Fin.ext ?_)
  match a with
  | ⟨0, _⟩ => show win0_2.index t (0 : Fin 2) * 256 + 1 * (j 0).val = (j 0).val; omega
  | ⟨1, _⟩ => show win0_2.index t (1 : Fin 2) * 512 + 1 * (j 1).val = (j 1).val; omega

theorem read3 (A : Vec Ideal S512 .f32) (t : Fin cfg0.N) : ((cfg0.win 3).blk t).view.read (Elt Ideal) A = A := by
  obtain ⟨-, -, -, -, -, -, e0, -⟩ := idx_facts t
  funext j
  show A (((cfg0.win 3).blk t).view.emb j) = A j
  refine congrArg A (funext fun a => Fin.ext ?_)
  match a with
  | ⟨0, _⟩ => show win0_3.index t (0 : Fin 1) * 512 + 1 * (j 0).val = (j 0).val; omega

theorem read4 (A : Vec Ideal S512x32 .f32) (t : Fin cfg0.N) : ((cfg0.win 4).blk t).view.read (Elt Ideal) A = A := by
  obtain ⟨-, -, -, -, -, -, -, e0, e1, -⟩ := idx_facts t
  funext j
  show A (((cfg0.win 4).blk t).view.emb j) = A j
  refine congrArg A (funext fun a => Fin.ext ?_)
  match a with
  | ⟨0, _⟩ => show win0_4.index t (0 : Fin 2) * 512 + 1 * (j 0).val = (j 0).val; omega
  | ⟨1, _⟩ => show win0_4.index t (1 : Fin 2) * 32 + 1 * (j 1).val = (j 1).val; omega

theorem read5 (A : Vec Ideal S32 .f32) (t : Fin cfg0.N) : ((cfg0.win 5).blk t).view.read (Elt Ideal) A = A := by
  obtain ⟨-, -, -, -, -, -, -, -, -, e0, -⟩ := idx_facts t
  funext j
  show A (((cfg0.win 5).blk t).view.emb j) = A j
  refine congrArg A (funext fun a => Fin.ext ?_)
  match a with
  | ⟨0, _⟩ => show win0_5.index t (0 : Fin 1) * 32 + 1 * (j 0).val = (j 0).val; omega

/-! ## The same of the arrays the region finds -/

theorem xblk_apply (c : Dev nD) (t : Fin cfg0.N) (r : Fin 1000) (d : Fin 256) :
    xblk m c t (ix2 r d) = xarr m c (ix2 (rowOf t r) d) := read0 (xarr m c) t r d
theorem mblk_apply (c : Dev nD) (t : Fin cfg0.N) (r : Fin 1000) (d : Fin 256) :
    mblk m c t (ix2 r d) = marr m c (ix2 (rowOf t r) d) := read1 (marr m c) t r d
theorem w1blk_eq (c : Dev nD) (t : Fin cfg0.N) : w1blk m c t = w1arr m c := read2 (w1arr m c) t
theorem b1blk_eq (c : Dev nD) (t : Fin cfg0.N) : b1blk m c t = b1arr m c := read3 (b1arr m c) t
theorem w2blk_eq (c : Dev nD) (t : Fin cfg0.N) : w2blk m c t = w2arr m c := read4 (w2arr m c) t
theorem b2blk_eq (c : Dev nD) (t : Fin cfg0.N) : b2blk m c t = b2arr m c := read5 (b2arr m c) t

/-! ## The output array as one function of the arrays the region finds -/

/-- Row n of the output, at unit j. -/
def rowAt (X M : Vec Ideal S100000x256 .f32) (W1 : Vec Ideal S256x512 .f32) (b1 : Vec Ideal S512 .f32)
    (W2 : Vec Ideal S512x32 .f32) (b2 : Vec Ideal S32 .f32) (n : Fin 100000) (j : Fin 32) : EReal :=
  Cert.Spec.mlpRow (fun d => X (ix2 n d) * M (ix2 n d)) W1 b1 W2 b2 j

/-- The whole output array. -/
def rows (X M : Vec Ideal S100000x256 .f32) (W1 : Vec Ideal S256x512 .f32) (b1 : Vec Ideal S512 .f32)
    (W2 : Vec Ideal S512x32 .f32) (b2 : Vec Ideal S32 .f32) : Vec Ideal S100000x32 .f32 :=
  fun i => rowAt X M W1 b1 W2 b2 (i 0) (i 1)

theorem rows_apply (X M : Vec Ideal S100000x256 .f32) (W1 : Vec Ideal S256x512 .f32) (b1 : Vec Ideal S512 .f32)
    (W2 : Vec Ideal S512x32 .f32) (b2 : Vec Ideal S32 .f32) (n : Fin 100000) (j : Fin 32) :
    rows X M W1 b1 W2 b2 (ix2 n j) = rowAt X M W1 b1 W2 b2 n j := rfl

theorem hz2 : (![0, 0] : Fin 2 → Nat) = fun _ => 0 := funext fun a => by fin_cases a <;> rfl
theorem hz1 : (![0] : Fin 1 → Nat) = fun _ => 0 := funext fun a => by fin_cases a <;> rfl

/-- What the body leaves in the output window's buffer at point t: its stored value of the point's six blocks. -/
theorem after6_pay (c : Dev nD) (t : Fin cfg0.N) :
    (dats m 0 c).after 6 t
      = k0_pay1 (F := Ideal) (xblk m c t) (mblk m c t) (w1blk m c t) (b1blk m c t) (w2blk m c t) (b2blk m c t) := by
  rw [after0_6]
  unfold out0_6
  rw [View.canon_unit_zero hz2]
  simp only [View.ld_unit_zero (S := S1000x256) hz2, View.ld_unit_zero (S := S256x512) hz2, View.ld_unit_zero (S := S512) hz1,
    View.ld_unit_zero (S := S512x32) hz2, View.ld_unit_zero (S := S32) hz1]

/-- The two-layer function of row r of point t's blocks is that of row 1000 t + r of the arrays. -/
theorem row_eq (c : Dev nD) (t : Fin cfg0.N) (r : Fin 1000) (q : Fin 32) :
    Cert.Spec.mlpRow (fun d => xblk m c t (ix2 r d) * mblk m c t (ix2 r d)) (w1blk m c t) (b1blk m c t) (w2blk m c t) (b2blk m c t) q
      = rowAt (xarr m c) (marr m c) (w1arr m c) (b1arr m c) (w2arr m c) (b2arr m c) (rowOf t r) q := by
  unfold rowAt
  rw [w1blk_eq m c t, b1blk_eq m c t, w2blk_eq m c t, b2blk_eq m c t]
  refine congrArg (fun x => Cert.Spec.mlpRow x (w1arr m c) (b1arr m c) (w2arr m c) (b2arr m c) q) (funext fun d => ?_)
  rw [xblk_apply m c t r d, mblk_apply m c t r d]

/-- The body's stored value at (r, q) of point t's block is the output function at row 1000 t + r. -/
theorem pay_row (c : Dev nD) (t : Fin cfg0.N) (r : Fin 1000) (q : Fin 32) :
    k0_pay1 (F := Ideal) (xblk m c t) (mblk m c t) (w1blk m c t) (b1blk m c t) (w2blk m c t) (b2blk m c t) (ix2 r q)
      = rowAt (xarr m c) (marr m c) (w1arr m c) (b1arr m c) (w2arr m c) (b2arr m c) (rowOf t r) q :=
  (Cert.KernelIdeal.Body.pay_apply (xblk m c t) (mblk m c t) (w1blk m c t) (b1blk m c t) (w2blk m c t) (b2blk m c t) r q).trans
    (row_eq m c t r q)

/-- Where entry (r, q) of point t's output block lies in the output array. -/
theorem emb6 (t : Fin cfg0.N) (r : Fin 1000) (q : Fin 32) :
    ((cfg0.win 6).blk t).view.emb (ix2 r q) = ix2 (rowOf t r) q := by
  obtain ⟨-, -, -, -, -, -, -, -, -, -, e0, e1⟩ := idx_facts t
  refine funext fun a => Fin.ext ?_
  match a with
  | ⟨0, _⟩ => show win0_6.index t (0 : Fin 2) * 1000 + 1 * r.val = t.val * 1000 + r.val; omega
  | ⟨1, _⟩ => show win0_6.index t (1 : Fin 2) * 32 + 1 * q.val = q.val; omega

/-- Entry (r, q) of point t's block of any array of the output's shape is the array's entry at row 1000 t + r. -/
theorem read6 (G : Vec Ideal S100000x32 .f32) (t : Fin cfg0.N) (r : Fin 1000) (q : Fin 32) :
    ((cfg0.win 6).blk t).view.read (Elt Ideal) G (ix2 r q) = G (ix2 (rowOf t r) q) := by
  show G (((cfg0.win 6).blk t).view.emb (ix2 r q)) = G (ix2 (rowOf t r) q)
  exact congrArg G (emb6 t r q)

/-- The output window is never cut at the array's end: what a point writes back is what the body left, entry by entry. -/
theorem cut6 (t : Fin cfg0.N) (X : Vec Ideal S1000x32 .f32) (r : Fin 1000) (q : Fin 32) :
    (cfg0.win 6).cut (grid0.coords t) X (ix2 r q) = X (ix2 r q) :=
  congrArg X (funext fun a => Fin.ext rfl)

/-- What point t writes back is block t of `rows` of the arrays the region finds. -/
theorem flushed6_eq (c : Dev nD) (t : Fin cfg0.N) :
    (dats m 0 c).flushed 6 t
      = ((cfg0.win 6).blk t).view.read (Elt Ideal) (rows (xarr m c) (marr m c) (w1arr m c) (b1arr m c) (w2arr m c) (b2arr m c)) := by
  funext j
  obtain ⟨r, q, rfl⟩ : ∃ (r : Fin 1000) (q : Fin 32), j = ix2 r q := ⟨j 0, j 1, eq_ix2 (n0 := 1000) (n1 := 32) j⟩
  refine (cut6 t ((dats m 0 c).after 6 t) r q).trans ?_
  rw [after6_pay m c t]
  exact ((pay_row m c t r q).trans
    (rows_apply (xarr m c) (marr m c) (w1arr m c) (b1arr m c) (w2arr m c) (b2arr m c) (rowOf t r) q).symm).trans
    (read6 (rows (xarr m c) (marr m c) (w1arr m c) (b1arr m c) (w2arr m c) (b2arr m c)) t r q).symm

/-- An index of the output array is in point t's block iff each coordinate is in the block's range on its axis. -/
theorem mem_blk6 (t : Fin cfg0.N) (i : S100000x32.Idx) :
    i ∈ ((cfg0.win 6).blk t).view.set ↔ ∀ a : Fin 2, win0_6.index t a * S1000x32.size a ≤ (i a).val ∧ (i a).val < win0_6.index t a * S1000x32.size a + S1000x32.size a := by
  show i ∈ ((View.whole main_v15).slice (win0_6.rect t)).set ↔ _
  rw [View.set_slice_whole, Rect.mem_set_unit]
  exact Iff.rfl

/-- Row n lies in the block of point n / 1000. -/
theorem cover6 (i : S100000x32.Idx) : ∃ t : Fin cfg0.N, (cfg0.win 6).flush t = true ∧ i ∈ ((cfg0.win 6).blk t).view.set := by
  have hi0 : (i 0).val < 100000 := (i 0).isLt
  have hi1 : (i 1).val < 32 := (i 1).isLt
  let t : Fin cfg0.N := ⟨(i 0).val / 1000, by show (i 0).val / 1000 < 100; omega⟩
  obtain ⟨-, -, -, -, -, -, -, -, -, -, e0, e1⟩ := idx_facts t
  have ht : t.val = (i 0).val / 1000 := rfl
  refine ⟨t, flush0_6 t, ?_⟩
  rw [mem_blk6]
  intro a
  match a with
  | ⟨0, _⟩ => show win0_6.index t (0 : Fin 2) * 1000 ≤ (i 0).val ∧ (i 0).val < win0_6.index t (0 : Fin 2) * 1000 + 1000; omega
  | ⟨1, _⟩ => show win0_6.index t (1 : Fin 2) * 32 ≤ (i 1).val ∧ (i 1).val < win0_6.index t (1 : Fin 2) * 32 + 32; omega

/-- The output array after the region. -/
theorem final6 (c : Dev nD) :
    (dats m 0 c).arrAt 6 cfg0.N = rows (xarr m c) (marr m c) (w1arr m c) (b1arr m c) (w2arr m c) (b2arr m c) :=
  (dats m 0 c).arrAt_eq_of_cover 6 _ (fun t _ => flushed6_eq m c t) cover6

end Cert.KernelIdeal.Rows

end
-- ==== Proof.KernelPrefix.lean ====
/-
  The arrays the kernel's region is given, as values of the program's arguments.

  Before its region the kernel's program runs 38 host operations: it flattens the grid encoding, compares the
  neighbour indices with zero, gathers along the flattened axis (23 operations of jnp.take_along_axis, the same the
  reference runs), and re-lays the gathered values and the mask as two [100000, 256] arrays. Read back, the feature
  array is the re-laid gathered array and the mask array the re-laid mask, where the gathered array and the mask bits
  are the very terms the reference computes from the same two arguments.
-/
import proofs.«165429_j49435073577117_1_alg».proof.Proof.Gen.KernelIdeal.Frame
import proofs.«165429_j49435073577117_1_alg».proof.Proof.RefRead
import Idealize.ShloMosaic.Lib.StableHlo.Run

noncomputable section

namespace Cert.KernelIdeal.Prefix

open Idealize.ShloMosaic Idealize.ShloMosaic.TcCoe Idealize.SL.Sem Idealize.ShloMosaic.StableHlo
open Cert.KernelIdeal Cert.KernelIdeal.Gen

section Callee

variable {F : FTy → Type} [FloatOps F]

/-- The gather's 23 operations, each at its buffers with its function at the values' own types. -/
abbrev calleeOps : List (HloOp τ sig (Elt F)) :=
  [ StableHlo.nullary main_call0_c ((constantI S_ 32 0#32) : (⟨S_, .i32⟩ : BufTy).Contents (Elt F)),
    StableHlo.unary main_call0_c main_call0_v0 ((broadcastInDim S1x8x3200000 ![] bcast_S_S1x8x3200000) : (⟨S_, .i32⟩ : BufTy).Contents (Elt F) → (⟨S1x8x3200000, .i32⟩ : BufTy).Contents (Elt F)),
    StableHlo.binary main_v4 main_call0_v0 main_call0_v1 ((cmpi .slt) : (⟨S1x8x3200000, .i32⟩ : BufTy).Contents (Elt F) → (⟨S1x8x3200000, .i32⟩ : BufTy).Contents (Elt F) → (⟨S1x8x3200000, .i1⟩ : BufTy).Contents (Elt F)),
    StableHlo.nullary main_call0_c_0 ((constantI S_ 32 262144#32) : (⟨S_, .i32⟩ : BufTy).Contents (Elt F)),
    StableHlo.unary main_call0_c_0 main_call0_v2 ((broadcastInDim S1x8x3200000 ![] bcast_S_S1x8x3200000) : (⟨S_, .i32⟩ : BufTy).Contents (Elt F) → (⟨S1x8x3200000, .i32⟩ : BufTy).Contents (Elt F)),
    StableHlo.binary main_v4 main_call0_v2 main_call0_v3 (addi : (⟨S1x8x3200000, .i32⟩ : BufTy).Contents (Elt F) → (⟨S1x8x3200000, .i32⟩ : BufTy).Contents (Elt F) → (⟨S1x8x3200000, .i32⟩ : BufTy).Contents (Elt F)),
    StableHlo.ternary main_call0_v1 main_call0_v3 main_v4 main_call0_v4 (select : (⟨S1x8x3200000, .i1⟩ : BufTy).Contents (Elt F) → (⟨S1x8x3200000, .i32⟩ : BufTy).Contents (Elt F) → (⟨S1x8x3200000, .i32⟩ : BufTy).Contents (Elt F) → (⟨S1x8x3200000, .i32⟩ : BufTy).Contents (Elt F)),
    StableHlo.reshape main_call0_v4 main_call0_v5 rfl shapeCasts_S1x8x3200000_S8x3200000x1,
    StableHlo.nullary main_call0_c_1 ((constantI S1 32 262143#32) : (⟨S1, .i32⟩ : BufTy).Contents (Elt F)),
    StableHlo.nullary main_call0_c_2 ((constantI S_ 32 0#32) : (⟨S_, .i32⟩ : BufTy).Contents (Elt F)),
    StableHlo.unary main_call0_c_2 main_call0_v6 ((broadcastInDim S8x3200000x1 ![] bcast_S_S8x3200000x1) : (⟨S_, .i32⟩ : BufTy).Contents (Elt F) → (⟨S8x3200000x1, .i32⟩ : BufTy).Contents (Elt F)),
    StableHlo.binary main_call0_v5 main_call0_v6 main_call0_v7 ((cmpi .sge) : (⟨S8x3200000x1, .i32⟩ : BufTy).Contents (Elt F) → (⟨S8x3200000x1, .i32⟩ : BufTy).Contents (Elt F) → (⟨S8x3200000x1, .i1⟩ : BufTy).Contents (Elt F)),
    StableHlo.unary main_call0_c_1 main_call0_v8 ((broadcastInDim S1x1x1 ![2] bcast_S1_S1x1x1_2) : (⟨S1, .i32⟩ : BufTy).Contents (Elt F) → (⟨S1x1x1, .i32⟩ : BufTy).Contents (Elt F)),
    StableHlo.unary main_call0_v8 main_call0_v9 ((broadcastInDim S8x3200000x1 ![0, 1, 2] bcast_S1x1x1_S8x3200000x1_0_1_2) : (⟨S1x1x1, .i32⟩ : BufTy).Contents (Elt F) → (⟨S8x3200000x1, .i32⟩ : BufTy).Contents (Elt F)),
    StableHlo.binary main_call0_v5 main_call0_v9 main_call0_v10 ((cmpi .sle) : (⟨S8x3200000x1, .i32⟩ : BufTy).Contents (Elt F) → (⟨S8x3200000x1, .i32⟩ : BufTy).Contents (Elt F) → (⟨S8x3200000x1, .i1⟩ : BufTy).Contents (Elt F)),
    StableHlo.binary main_call0_v7 main_call0_v10 main_call0_v11 (andi : (⟨S8x3200000x1, .i1⟩ : BufTy).Contents (Elt F) → (⟨S8x3200000x1, .i1⟩ : BufTy).Contents (Elt F) → (⟨S8x3200000x1, .i1⟩ : BufTy).Contents (Elt F)),
    StableHlo.nullary main_call0_c_3 ((constantI S_ 1 1#1) : (⟨S_, .i1⟩ : BufTy).Contents (Elt F)),
    StableHlo.binary main_call0_v11 main_call0_c_3 main_call0_v12 ((fun x v => Host.reduce IntOp.andi x v reducesTo_S8x3200000x1_S8x3200000_d2 h_S_) : (⟨S8x3200000x1, .i1⟩ : BufTy).Contents (Elt F) → (⟨S_, .i1⟩ : BufTy).Contents (Elt F) → (⟨S8x3200000, .i1⟩ : BufTy).Contents (Elt F)),
    StableHlo.binary main_v0 main_call0_v5 main_call0_v13 ((fun x i => Host.gather gather_S1x8x262144_S8x3200000x1_S1x8x3200000_0_2_1_0_2_2_111 x i) : (⟨S1x8x262144, .f32⟩ : BufTy).Contents (Elt F) → (⟨S8x3200000x1, .i32⟩ : BufTy).Contents (Elt F) → (⟨S1x8x3200000, .f32⟩ : BufTy).Contents (Elt F)),
    StableHlo.unary main_call0_v12 main_call0_v14 ((broadcastInDim S1x8x3200000 ![1, 2] bcast_S8x3200000_S1x8x3200000_1_2) : (⟨S8x3200000, .i1⟩ : BufTy).Contents (Elt F) → (⟨S1x8x3200000, .i1⟩ : BufTy).Contents (Elt F)),
    StableHlo.nullary main_call0_cst ((constant S_ .f32 0x7FC00000#32) : (⟨S_, .f32⟩ : BufTy).Contents (Elt F)),
    StableHlo.unary main_call0_cst main_call0_v15 ((broadcastInDim S1x8x3200000 ![] bcast_S_S1x8x3200000) : (⟨S_, .f32⟩ : BufTy).Contents (Elt F) → (⟨S1x8x3200000, .f32⟩ : BufTy).Contents (Elt F)),
    StableHlo.ternary main_call0_v14 main_call0_v13 main_call0_v15 main_v5 (select : (⟨S1x8x3200000, .i1⟩ : BufTy).Contents (Elt F) → (⟨S1x8x3200000, .f32⟩ : BufTy).Contents (Elt F) → (⟨S1x8x3200000, .f32⟩ : BufTy).Contents (Elt F) → (⟨S1x8x3200000, .f32⟩ : BufTy).Contents (Elt F)) ]

theorem cons_congr {α : Type} {a b : α} {l l' : List α} (h : a = b) (h' : l = l') : a :: l = b :: l' := by
  subst h; subst h'; rfl

attribute [local irreducible] Host.reduce in
set_option maxRecDepth 16384 in
/-- They are the printed operations: a typed reference to a literal buffer changes nothing, operation by operation. -/
theorem callee_plain : (hostOps0_1 : List (HloOp τ sig (Elt F))) = calleeOps :=
  cons_congr rfl <| cons_congr rfl <| cons_congr rfl <| cons_congr rfl <| cons_congr rfl <| cons_congr rfl <| cons_congr rfl <| cons_congr rfl <| cons_congr rfl <| cons_congr rfl <| cons_congr rfl <| cons_congr rfl <| cons_congr rfl <| cons_congr rfl <| cons_congr rfl <| cons_congr rfl <| cons_congr rfl <| cons_congr rfl <| cons_congr rfl <| cons_congr rfl <| cons_congr rfl <| cons_congr rfl <| cons_congr rfl <| rfl

end Callee

variable (m : (ℓ : Loc nD τ sig) → Buf (Elt Ideal) ℓ)

/-- The gathered array re-laid as [100000, 256]. -/
def featArr (x0 : (⟨S1x8x64x64x64, .f32⟩ : BufTy).Contents (Elt Ideal)) (x1 : (⟨S1x100000x32, .i32⟩ : BufTy).Contents (Elt Ideal)) :
    Vec Ideal S100000x256 .f32 :=
  shapeCast S100000x256
    (shapeCast S1x100000x256
      (transpose S1x100000x8x32 [0, 2, 1, 3]
        (shapeCast S1x8x100000x32 (Cert.ReferenceIdeal.ReadP.val_main_v5 (F := Ideal) x0 x1) shapeCasts_S1x8x3200000_S1x8x100000x32)
        transposes_S1x8x100000x32_S1x100000x8x32_0_2_1_3)
      shapeCasts_S1x100000x8x32_S1x100000x256)
    shapeCasts_S1x100000x256_S100000x256

/-- The mask repeated over the channels, re-laid as [100000, 256], as numbers. -/
def maskArr (x1 : (⟨S1x100000x32, .i32⟩ : BufTy).Contents (Elt Ideal)) : Vec Ideal S100000x256 .f32 :=
  shapeCast S100000x256
    (uitofp (F := Ideal) .f32
      (shapeCast S1x100000x256
        (broadcastInDim S1x100000x8x32 ![0, 1, 2, 3] bcast_S1x100000x1x32_S1x100000x8x32_0_1_2_3
          (broadcastInDim S1x100000x1x32 ![0, 1, 3] bcast_S1x100000x32_S1x100000x1x32_0_1_3
            (Cert.ReferenceIdeal.ReadP.val_main_v2 (F := Ideal) x1)))
        shapeCasts_S1x100000x8x32_S1x100000x256))
    shapeCasts_S1x100000x256_S100000x256

set_option maxRecDepth 16384 in
set_option maxHeartbeats 2000000 in
/-- The feature array the region finds. -/
theorem V_features (c : Dev nD) :
    V m c main_v13 = featArr (m ((c : Thread nD τ).loc main_arg0)) (m ((c : Thread nD τ).loc main_arg1)) := by
  dsimp only [V, V0]
  rw [callee_plain]
  simp only [hostOps0, calleeOps, hostOps0_2, List.flatten_cons, List.flatten_nil, List.append_nil, List.cons_append,
    List.nil_append]
  after_results_simp
  rfl

set_option maxRecDepth 16384 in
set_option maxHeartbeats 2000000 in
/-- The mask array the region finds. -/
theorem V_mask (c : Dev nD) :
    V m c main_v14 = maskArr (m ((c : Thread nD τ).loc main_arg1)) := by
  dsimp only [V, V0]
  rw [callee_plain]
  simp only [hostOps0, calleeOps, hostOps0_2, List.flatten_cons, List.flatten_nil, List.append_nil, List.cons_append,
    List.nil_append]
  after_results_simp
  rfl

end Cert.KernelIdeal.Prefix

end
-- ==== Proof.KernelHost.lean ====
/-
  The two arrays the kernel's region is given, read at an entry.

  The feature array [100000, 256] is the gathered array [1, 8, 3200000] cut into [1, 8, 100000, 32], its channel and
  point axes exchanged, and each point's 8 × 32 values laid out as one row of 256: entry (n, 32 c + k) is the gathered
  value at (0, c, 32 n + k). The mask array [100000, 256] is the neighbour mask [1, 100000, 32] repeated over the 8
  channels, laid out the same way and turned into numbers: entry (n, 32 c + k) is the mask at (0, n, k) as a number.
-/
import proofs.«165429_j49435073577117_1_alg».proof.Proof.Gen.KernelIdeal
import proofs.«165429_j49435073577117_1_alg».proof.Proof.Spec
import Idealize.ShloMosaic.Lib.Pipeline.Value
import Idealize.ShloMosaic.Lib.ValueIdx
import Idealize.ShloMosaic.Lib.ValueLayout

noncomputable section

namespace Cert.KernelIdeal.HostRead

open Idealize.ShloMosaic Idealize.ShloMosaic.TcCoe Idealize.ShloMosaic.ValueIdx Cert.KernelIdeal Cert.KernelIdeal.Gen Cert.Spec

variable {α : Type}

/-- The gathered array re-laid as the feature array, at (n, d): the gathered value of channel d / 32 at position
    32 n + d % 32. -/
theorem features_apply (y : S1x8x3200000.Idx → α) (n : Fin 100000) (d : Fin 256) :
    shapeCast S100000x256
        (shapeCast S1x100000x256
          (transpose S1x100000x8x32 [0, 2, 1, 3] (shapeCast S1x8x100000x32 y shapeCasts_S1x8x3200000_S1x8x100000x32)
            transposes_S1x8x100000x32_S1x100000x8x32_0_2_1_3)
          shapeCasts_S1x100000x8x32_S1x100000x256)
        shapeCasts_S1x100000x256_S100000x256 (ix2 n d)
      = y (ix3 0 (chan d) (flat n (nbr d))) := by
  have hd : d.val < 256 := d.isLt
  have hn : n.val < 100000 := n.isLt
  rw [shapeCast_1ab_ab_apply,
    shapeCast_apply _ shapeCasts_S1x100000x8x32_S1x100000x256 (ix3 0 n d) (ix4 0 n (chan d) (nbr d)) (by
      rw [Shape.rowMajor_val_four, Shape.rowMajor_val_three]
      show ((0 * 100000 + n.val) * 8 + d.val / 32) * 32 + d.val % 32 = (0 * 100000 + n.val) * 256 + d.val
      omega),
    transpose_apply [0, 2, 1, 3] _ transposes_S1x8x100000x32_S1x100000x8x32_0_2_1_3 (ix4 0 n (chan d) (nbr d))
      (ix4 0 (chan d) n (nbr d)) (fun b => match b with
        | ⟨0, _⟩ => rfl
        | ⟨1, _⟩ => rfl
        | ⟨2, _⟩ => rfl
        | ⟨3, _⟩ => rfl),
    shapeCast_apply _ shapeCasts_S1x8x3200000_S1x8x100000x32 (ix4 0 (chan d) n (nbr d)) (ix3 0 (chan d) (flat n (nbr d))) (by
      rw [Shape.rowMajor_val_three, Shape.rowMajor_val_four]
      show (0 * 8 + d.val / 32) * 3200000 + (n.val * 32 + d.val % 32) = ((0 * 8 + d.val / 32) * 100000 + n.val) * 32 + d.val % 32
      omega)]

/-- The mask repeated over the channels and re-laid as the mask array, at (n, d): the mask of neighbour d % 32 of
    point n. -/
theorem maskbits_apply (b : S1x100000x32.Idx → α) (n : Fin 100000) (d : Fin 256) :
    shapeCast S1x100000x256
        (broadcastInDim S1x100000x8x32 ![0, 1, 2, 3] bcast_S1x100000x1x32_S1x100000x8x32_0_1_2_3
          (broadcastInDim S1x100000x1x32 ![0, 1, 3] bcast_S1x100000x32_S1x100000x1x32_0_1_3 b))
        shapeCasts_S1x100000x8x32_S1x100000x256 (ix3 0 n d)
      = b (ix3 0 n (nbr d)) := by
  have hd : d.val < 256 := d.isLt
  have hn : n.val < 100000 := n.isLt
  rw [shapeCast_apply _ shapeCasts_S1x100000x8x32_S1x100000x256 (ix3 0 n d) (ix4 0 n (chan d) (nbr d)) (by
      rw [Shape.rowMajor_val_four, Shape.rowMajor_val_three]
      show ((0 * 100000 + n.val) * 8 + d.val / 32) * 32 + d.val % 32 = (0 * 100000 + n.val) * 256 + d.val
      omega),
    broadcastInDim_apply _ bcast_S1x100000x1x32_S1x100000x8x32_0_1_2_3 _ (ix4 0 n (chan d) (nbr d)) (ix4 0 n 0 (nbr d))
      (fun a => match a with
        | ⟨0, _⟩ => by show 0 = if (1 : Nat) = 1 then 0 else 0; rw [if_pos rfl]
        | ⟨1, _⟩ => by show n.val = if (100000 : Nat) = 1 then 0 else n.val; rw [if_neg (by decide)]
        | ⟨2, _⟩ => by show 0 = if (1 : Nat) = 1 then 0 else d.val / 32; rw [if_pos rfl]
        | ⟨3, _⟩ => by show d.val % 32 = if (32 : Nat) = 1 then 0 else d.val % 32; rw [if_neg (by decide)]),
    broadcastInDim_apply _ bcast_S1x100000x32_S1x100000x1x32_0_1_3 _ (ix4 0 n 0 (nbr d)) (ix3 0 n (nbr d))
      (fun a => match a with
        | ⟨0, _⟩ => by show 0 = if (1 : Nat) = 1 then 0 else 0; rw [if_pos rfl]
        | ⟨1, _⟩ => by show n.val = if (100000 : Nat) = 1 then 0 else n.val; rw [if_neg (by decide)]
        | ⟨2, _⟩ => by show d.val % 32 = if (32 : Nat) = 1 then 0 else d.val % 32; rw [if_neg (by decide)])]

/-- The mask array the region is given, at (n, d): the mask of neighbour d % 32 of point n, as a number. -/
theorem maskarr_apply (b : IVec S1x100000x32 1) (n : Fin 100000) (d : Fin 256) :
    (shapeCast S100000x256
        (uitofp (F := Ideal) .f32
          (shapeCast S1x100000x256
            (broadcastInDim S1x100000x8x32 ![0, 1, 2, 3] bcast_S1x100000x1x32_S1x100000x8x32_0_1_2_3
              (broadcastInDim S1x100000x1x32 ![0, 1, 3] bcast_S1x100000x32_S1x100000x1x32_0_1_3 b))
            shapeCasts_S1x100000x8x32_S1x100000x256))
        shapeCasts_S1x100000x256_S100000x256 : FVec Ideal S100000x256 .f32) (ix2 n d)
      = (uitofp (F := Ideal) .f32 b : FVec Ideal S1x100000x32 .f32) (ix3 0 n (nbr d)) := by
  rw [shapeCast_1ab_ab_apply]
  show FloatOps.uitofp .f32 (shapeCast S1x100000x256 _ shapeCasts_S1x100000x8x32_S1x100000x256 (ix3 0 n d)) = FloatOps.uitofp .f32 (b (ix3 0 n (nbr d)))
  rw [maskbits_apply]

end Cert.KernelIdeal.HostRead

end
-- ==== Proof.KernelResult.lean ====
/-
  The kernel program's result.

  After the region one host operation gives the output array [100000, 32] a leading axis of extent one. So the program
  returns, at (0, n, j), the region's output at (n, j): the two-layer function of row n of the entrywise product of the
  feature and mask arrays. With those two arrays read back to the gathered array and the mask, that is the
  specification at (0, n, j).
-/
import proofs.«165429_j49435073577117_1_alg».proof.Proof.KernelRows
import proofs.«165429_j49435073577117_1_alg».proof.Proof.KernelPrefix
import proofs.«165429_j49435073577117_1_alg».proof.Proof.KernelHost
import proofs.«165429_j49435073577117_1_alg».proof.Proof.Spec
import Idealize.ShloMosaic.Lib.Pipeline.Value
import Idealize.ShloMosaic.Lib.StableHlo.Run

set_option maxRecDepth 16384

noncomputable section

namespace Cert.KernelIdeal.Result

open Idealize.ShloMosaic Idealize.ShloMosaic.TcCoe Idealize.ShloMosaic.ValueIdx Idealize.SL.Sem Idealize.ShloMosaic.StableHlo
open Cert.KernelIdeal Cert.KernelIdeal.Gen Cert.KernelIdeal.Rows Cert.KernelIdeal.Prefix
open Cert.ReferenceIdeal.ReadP (val_main_v5 val_main_v2)

variable (m : (ℓ : Loc nD τ sig) → Buf (Elt Ideal) ℓ) (ρ : Dev nD → PrngReg)

/-- What the program returns: the region's output array with a leading unit axis. -/
def res (c : Dev nD) : Vec Ideal S1x100000x32 .f32 :=
  broadcastInDim S1x100000x32 ![1, 2] bcast_S100000x32_S1x100000x32_1_2
    (rows (xarr m c) (marr m c) (w1arr m c) (b1arr m c) (w2arr m c) (b2arr m c))

/-- The host operation after the region, applied to the region's output array. -/
theorem tail_val (c : Dev nD) :
    Pipeline.afterTail₀ cfgs (dats m) 0 (V0 m) [hostOps1] c main_v16 = res m c := by
  unfold Pipeline.afterTail₀
  show StableHlo.after hostOps1 _ (Proc.devRef .tc main_v16) = _
  after_results
  exact congrArg (broadcastInDim S1x100000x32 ![1, 2] bcast_S100000x32_S1x100000x32_1_2)
    ((Pipeline.withArrays_arr spec0 launch0.win.arr_inj c (V0 m c) (fun w => (dats m 0 c).arrAt w cfg0.N) 6).trans (final6 m c))

/-- The kernel program's run with its result named. -/
theorem run : θ_run defs (onTc (τ := τ) (main (F := Ideal))) ⟨m, fun _ => 0, ρ⟩ (fun r => ∀ c : Dev nD,
      r.2.mem ((c.tc : Thread nD τ).loc main_v16) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v16 (Pipeline.mem_restRefs_of main_v16 (by decide) (by decide))).trans (tail_val m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c)))⟩)
    (run_main m ρ)

/-- Row n of the region's two input arrays, entry by entry, is point n's masked feature row. -/
theorem feat_row (x0 : (⟨Cert.ReferenceIdeal.S1x8x64x64x64, .f32⟩ : BufTy).Contents (Elt Ideal))
    (x1 : (⟨Cert.ReferenceIdeal.S1x100000x32, .i32⟩ : BufTy).Contents (Elt Ideal)) (n : Fin 100000) (d : Fin 256) :
    featArr x0 x1 (ix2 n d) * maskArr x1 (ix2 n d)
      = Cert.Spec.feat (val_main_v5 (F := Ideal) x0 x1) (uitofp (F := Ideal) .f32 (val_main_v2 (F := Ideal) x1)) n d := by
  unfold featArr maskArr Cert.Spec.feat
  rw [Cert.KernelIdeal.HostRead.features_apply, Cert.KernelIdeal.HostRead.maskarr_apply]

/-- The result is the specification of the gathered array and the mask the reference computes from the same arguments. -/
theorem res_eq (c : Dev nD) :
    res m c = Cert.Spec.out
      (val_main_v5 (F := Ideal) (m ((c : Thread nD τ).loc main_arg0)) (m ((c : Thread nD τ).loc main_arg1)))
      (uitofp (F := Ideal) .f32 (val_main_v2 (F := Ideal) (m ((c : Thread nD τ).loc main_arg1))))
      (m ((c : Thread nD τ).loc main_arg2)) (m ((c : Thread nD τ).loc main_arg3))
      (m ((c : Thread nD τ).loc main_arg4)) (m ((c : Thread nD τ).loc main_arg5)) := by
  funext i
  obtain ⟨u, n, j, rfl⟩ : ∃ (u : Fin 1) (n : Fin 100000) (j : Fin 32), i = ix3 u n j := ⟨i 0, i 1, i 2, eq_ix3 i⟩
  obtain rfl : u = 0 := Fin.ext (by have := u.isLt; omega)
  rw [Cert.Spec.out_apply]
  unfold res
  rw [broadcastInDim_apply _ bcast_S100000x32_S1x100000x32_1_2 _ (ix3 (0 : Fin 1) n j) (ix2 n j) (fun a => match a with
    | ⟨0, _⟩ => by show n.val = if (100000 : Nat) = 1 then 0 else n.val; rw [if_neg (by decide)]
    | ⟨1, _⟩ => by show j.val = if (32 : Nat) = 1 then 0 else j.val; rw [if_neg (by decide)])]
  show rowAt (xarr m c) (marr m c) (w1arr m c) (b1arr m c) (w2arr m c) (b2arr m c) n j = _
  unfold rowAt
  rw [show xarr m c = featArr (m ((c : Thread nD τ).loc main_arg0)) (m ((c : Thread nD τ).loc main_arg1)) from V_features m c,
    show marr m c = maskArr (m ((c : Thread nD τ).loc main_arg1)) from V_mask m c,
    show w1arr m c = m ((c : Thread nD τ).loc main_arg2) from V_main_arg2 m c,
    show b1arr m c = m ((c : Thread nD τ).loc main_arg3) from V_main_arg3 m c,
    show w2arr m c = m ((c : Thread nD τ).loc main_arg4) from V_main_arg4 m c,
    show b2arr m c = m ((c : Thread nD τ).loc main_arg5) from V_main_arg5 m c]
  refine congrArg (fun x => Cert.Spec.mlpRow x _ _ _ _ j) (funext fun d => ?_)
  exact feat_row _ _ n d

end Cert.KernelIdeal.Result

end
-- ==== Proof.lean ====
/-
  A point cloud's local geometry encoding: for each of 100000 points, the grid encoding's 8 channels gathered at the
  point's 32 neighbour indices, masked where the index is zero, laid out as one row of 256 features, and put through
  Linear(256 → 512), the maximum with zero, and Linear(512 → 32).

  The kernel's program gathers on the host, re-lays the gathered values and the mask as two [100000, 256] arrays, and in
  one region of 100 row blocks multiplies them entry by entry and applies the two layers; the reference multiplies by
  the mask before it re-lays, and applies the two layers as two whole products. Over the extended reals both are the
  same function of the gathered array and the mask — entry (n, 32 c + k) of the feature row is the gathered value of
  channel c at neighbour k of point n times that neighbour's mask on either side, a row of a product is the same sum
  over the whole contracted axis whether the product is taken over a block of 1000 rows or over all of them, and the
  body's narrowing to bfloat16 on the way into each product changes nothing there — and the gathered array and the mask
  are computed from the same two arguments by the same operations. No law of arithmetic joins the two sides, so finiteness of the inputs is never used.

  The frames of the two kernel programs are the generated ones; the reference's is its run with the result dropped.
  The idealization rewrote nothing, so there is nothing to preserve.
-/
import proofs.«165429_j49435073577117_1_alg».proof.Defs
import proofs.«165429_j49435073577117_1_alg».proof.Proof.Gen.Kernel
import proofs.«165429_j49435073577117_1_alg».proof.Proof.Gen.Kernel.Skeleton
import proofs.«165429_j49435073577117_1_alg».proof.Proof.Gen.Kernel.Launch
import proofs.«165429_j49435073577117_1_alg».proof.Proof.Gen.Kernel.Points
import proofs.«165429_j49435073577117_1_alg».proof.Proof.Gen.Kernel.Frame
import proofs.«165429_j49435073577117_1_alg».proof.Proof.Gen.KernelIdeal
import proofs.«165429_j49435073577117_1_alg».proof.Proof.Gen.KernelIdeal.Skeleton
import proofs.«165429_j49435073577117_1_alg».proof.Proof.Gen.KernelIdeal.Launch
import proofs.«165429_j49435073577117_1_alg».proof.Proof.Gen.KernelIdeal.Points
import proofs.«165429_j49435073577117_1_alg».proof.Proof.Gen.KernelIdeal.Frame
import proofs.«165429_j49435073577117_1_alg».proof.Proof.Gen.ReferenceIdeal
import proofs.«165429_j49435073577117_1_alg».proof.Proof.Gen.Pre_finite_inputs
import proofs.«165429_j49435073577117_1_alg».proof.Proof.RefRun
import proofs.«165429_j49435073577117_1_alg».proof.Proof.RefRead
import proofs.«165429_j49435073577117_1_alg».proof.Proof.RefSpec
import proofs.«165429_j49435073577117_1_alg».proof.Proof.KernelResult
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference runs, and leaves its arguments as they were: its run, the result forgotten. -/
theorem frame_referenceIdeal : Cert.frame_ReferenceIdeal := fun m ρ _ =>
  (θ_run Cert.ReferenceIdeal.defs _ _).mono (fun _ h c => (h c).2) (Cert.ReferenceIdeal.RunP.run (F := Ideal) m ρ)

/-- Both programs end with the specification of the gathered array and the mask that the same operations compute from
    the arguments they agree on. -/
theorem algebraic : Cert.algebraic_KernelIdeal_ReferenceIdeal := by
  intro m ρ m' ρ' _ hagree
  refine ⟨fun c => Cert.KernelIdeal.Result.res m c, Cert.KernelIdeal.Result.run m ρ, ?_⟩
  refine (θ_run Cert.ReferenceIdeal.defs _ _).mono (fun _ h c => ⟨(h c).1.trans ?_, (h c).2⟩)
    (Cert.ReferenceIdeal.RunP.run (F := Ideal) m' ρ')
  show Cert.ReferenceIdeal.RunP.res_main_v21 m' c = Cert.KernelIdeal.Result.res m c
  obtain ⟨h0, h1, h2, h3, h4, h5⟩ := hagree c
  rw [Cert.ReferenceIdeal.ReadP.val_main_v21_eq, Cert.ReferenceIdeal.RefSpec.result_eq, Cert.KernelIdeal.Result.res_eq,
    h0, h1, h2, h3, h4, h5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
